-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x128 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16x8192 .f32) (main_arg1 : FVec F S8192x128 .f32) (main_arg2 : FVec F S64x128 .f32) (main_arg3 : FVec F S64 .f32) (main_arg4 : FVec F S64x128 .f32) (main_arg5 : FVec F S64 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S1x64 : Shape := ⟨2, ![1, 64]⟩
abbrev S64x1 : Shape := ⟨2, ![64, 1]⟩
abbrev S64x8192 : Shape := ⟨2, ![64, 8192]⟩
abbrev S512x128 : Shape := ⟨2, ![512, 128]⟩
abbrev S512x64 : Shape := ⟨2, ![512, 64]⟩
abbrev S512x8192 : Shape := ⟨2, ![512, 8192]⟩
abbrev S512 : Shape := ⟨1, ![512]⟩
abbrev S512x1 : Shape := ⟨2, ![512, 1]⟩
abbrev S1x512 : Shape := ⟨2, ![1, 512]⟩
abbrev S16x512 : Shape := ⟨2, ![16, 512]⟩

abbrev nBuf : Space → Nat
  | .hbm => 9
  | .vmem => 8
  | .smem => 0
  | _ => 0

abbrev bufTy : (tb : Table) → Fin (tcTables nBuf tb) → BufTy
  | .hbm, ⟨0, _⟩ => ⟨S16x8192, .f32⟩
  | .hbm, ⟨1, _⟩ => ⟨S8192x128, .f32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S1x64, .f32⟩
  | .hbm, ⟨7, _⟩ => ⟨S64x1, .f32⟩
  | .hbm, ⟨8, _⟩ => ⟨S16x8192, .f32⟩
  | .local _ .vmem, ⟨0, _⟩ => ⟨S16x8192, .f32⟩
  | .local _ .vmem, ⟨1, _⟩ => ⟨S8192x128, .f32⟩
  | .local _ .vmem, ⟨2, _⟩ => ⟨S64x128, .f32⟩
  | .local _ .vmem, ⟨3, _⟩ => ⟨S1x64, .f32⟩
  | .local _ .vmem, ⟨4, _⟩ => ⟨S64x128, .f32⟩
  | .local _ .vmem, ⟨5, _⟩ => ⟨S64x1, .f32⟩
  | .local _ .vmem, ⟨6, _⟩ => ⟨S16x8192, .f32⟩
  | .local _ .vmem, ⟨7, _⟩ => ⟨S64x8192, .bf16⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c512_i32 : BitVec 32 := 512#32
  let v3 : BitVec 32 := Scalar.muli arg0 c512_i32
  let v4 : Index := Scalar.indexCast v3
  let c0 : Index := 0#32
  ![v4.toNat, 0]
def k0_off2 (i : grid0.Coords) : Fin 2 → Nat :=
  let c0_10 : Index := 0#32
  let arg0 : BitVec 32 := BitVec.ofNat 32 (i 0).val
  let c512_i32_9 : BitVec 32 := 512#32
  let v20 : BitVec 32 := Scalar.muli arg0 c512_i32_9
  let v21 : Index := Scalar.indexCast v20
  ![0, v21.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S64_S1x64 : S64.ShapeCasts S1x64
  shapeCasts_S64_S64x1 : S64.ShapeCasts S64x1
  inb_S64x128_S64x128_0_0 : ∀ a, (![0, 0] : Fin 2 → Nat) a + S64x128.size a ≤ S64x128.size a
  h_S64x128 : 0 < S64x128.numel
  inb_S8192x128_S8192x128_0_0 : ∀ a, (![0, 0] : Fin 2 → Nat) a + S8192x128.size a ≤ S8192x128.size a
  h_S8192x128 : 0 < S8192x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x8192 : S64x1.Broadcasts S64x8192
  bitsLt_bf16_f32 : FTy.bits .bf16 < FTy.bits .f32
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  packedbf16_S64x8192_S64x8192_0_0 : (Rect.unit (s := S64x8192) ![0, 0] S64x8192.size inb_S64x8192_S64x8192_0_0).PackedRows (EltTy.packing .bf16)
  inb_S16x8192_S16x8192_0_0 : ∀ a, (![0, 0] : Fin 2 → Nat) a + S16x8192.size a ≤ S16x8192.size a
  h_S16x8192 : 0 < S16x8192.numel
  h_S512x128 : 0 < S512x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  reduces_S512x8192_S512 : S512x8192.Reduces [1] S512
  shapeCasts_S512_S512x1 : S512.ShapeCasts S512x1
  transposes_S512x1_p1_0_S1x512 : S512x1.Transposes [1, 0] S1x512
  h_S16x512 : 0 < S16x512.numel
  broadcasts_S1x512_S16x512 : S1x512.Broadcasts S16x512
  shapeCasts_S16x8192_S16x8192 : S16x8192.ShapeCasts S16x8192
  dot_S64x128_S8192x128_S64x8192_1_1_0_0_n_n_wf : DotDims.WF S64x128 S8192x128 S64x8192 [1] [1] [0] [0] [] []
  dot_S512x128_S64x128_S512x64_1_1_0_0_n_n_wf : DotDims.WF S512x128 S64x128 S512x64 [1] [1] [0] [0] [] []
  dot_S512x64_S64x8192_S512x8192_1_0_0_1_n_n_wf : DotDims.WF S512x64 S64x8192 S512x8192 [1] [0] [0] [1] [] []
  dot_S16x512_S512x8192_S16x8192_1_0_0_1_n_n_wf : DotDims.WF S16x512 S512x8192 S16x8192 [1] [0] [0] [1] [] []
  hrank0 : 0 < grid0.rank
  k0_off1_inb : ∀ i : grid0.Coords, ∀ a, (k0_off1 i) a + S512x128.size a ≤ S8192x128.size a
  k0_off2_inb : ∀ i : grid0.Coords, ∀ a, (k0_off2 i) a + S16x512.size a ≤ S16x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S16x8192.size a
  hwx0_0 : ∀ i : grid0.Coords, EltTy.bits .f32 = 32 ∨ (Rect.block (s := S16x8192) S16x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x8192.size a ≤ S16x8192.size a
  hwx0_6 : ∀ i : grid0.Coords, EltTy.bits .f32 = 32 ∨ (Rect.block (s := S16x8192) S16x8192.size (cc0_transform_6 i) (hinb0_6 i)).WholeWords (EltTy.packing .f32)

variable [Facts₀]

def dot_S64x128_S8192x128_S64x8192_1_1_0_0_n_n : DotDims S64x128 S8192x128 S64x8192 where
  lhsContracting := [1]
  rhsContracting := [1]
  lhsNonContracting := [0]
  rhsNonContracting := [0]
  lhsBatch := []
  rhsBatch := []
  wf := dot_S64x128_S8192x128_S64x8192_1_1_0_0_n_n_wf
def dot_S512x128_S64x128_S512x64_1_1_0_0_n_n : DotDims S512x128 S64x128 S512x64 where
  lhsContracting := [1]
  rhsContracting := [1]
  lhsNonContracting := [0]
  rhsNonContracting := [0]
  lhsBatch := []
  rhsBatch := []
  wf := dot_S512x128_S64x128_S512x64_1_1_0_0_n_n_wf
def dot_S512x64_S64x8192_S512x8192_1_0_0_1_n_n : DotDims S512x64 S64x8192 S512x8192 where
  lhsContracting := [1]
  rhsContracting := [0]
  lhsNonContracting := [0]
  rhsNonContracting := [1]
  lhsBatch := []
  rhsBatch := []
  wf := dot_S512x64_S64x8192_S512x8192_1_0_0_1_n_n_wf
def dot_S16x512_S512x8192_S16x8192_1_0_0_1_n_n : DotDims S16x512 S512x8192 S16x8192 where
  lhsContracting := [1]
  rhsContracting := [0]
  lhsNonContracting := [0]
  rhsNonContracting := [1]
  lhsBatch := []
  rhsBatch := []
  wf := dot_S16x512_S512x8192_S16x8192_1_0_0_1_n_n_wf

abbrev win0_0 : Pipeline.Window sig grid0 :=
  Pipeline.Window.ofSpec (Memref.whole main_arg0) S16x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S16x8192.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S128x64 : Shape := ⟨2, ![128, 64]⟩
abbrev S8192x64 : Shape := ⟨2, ![8192, 64]⟩
abbrev S1x64 : Shape := ⟨2, ![1, 64]⟩
abbrev S64x8192 : Shape := ⟨2, ![64, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S8192x128, .f32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S128x64, .f32⟩
  | .hbm, ⟨7, _⟩ => ⟨S8192x64, .f32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S128x64, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S64x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S16x8192, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x128_S128x64_S8192x64_1_0_0_1_n_n_wf : DotDims.WF S8192x128 S128x64 S8192x64 [1] [0] [0] [1] [] []
  dot_S8192x64_S64x8192_S8192x8192_1_0_0_1_n_n_wf : DotDims.WF S8192x64 S64x8192 S8192x8192 [1] [0] [0] [1] [] []
  dot_S16x8192_S8192x8192_S16x8192_1_0_0_1_n_n_wf : DotDims.WF S16x8192 S8192x8192 S16x8192 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S16x8192_S8192x8192_S16x8192_1_0_0_1_n_n : DotDims S16x8192 S8192x8192 S16x8192 where
  lhsContracting := [1]
  rhsContracting := [0]
  lhsNonContracting := [0]
  rhsNonContracting := [1]
  lhsBatch := []
  rhsBatch := []
  wf := dot_S16x8192_S8192x8192_S16x8192_1_0_0_1_n_n_wf

class Facts : Prop extends Facts₀ where

variable [Facts]
-- ==== Proof.Pieces.lean ====
/-
  What one grid point leaves behind, as values.

  The body, run at a point, ends with its output block and its key scratch covered by the stores it made; read back,
  each is the payload of its last covering store. At the first point the scratch receives the transposed key features
  of the whole embedding, the output block is zeroed, and the slab's contribution is added to that zero; at every later
  point the scratch is left alone and the slab's contribution is added to what the point before left. The slab a point
  works on is read through a rectangle of the whole embedding (512 rows) and of the whole belief array (512 columns)
  at the point's offset.
-/
import proofs.«173221_g5935644803188_cont_9to1c4b_610_6_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Hand

open Cert.KernelIdeal Cert.KernelIdeal.Gen

variable {F : FTy → Type} [FloatOps F]

theorem zero_offsets : (![0, 0] : Fin 2 → Nat) = fun _ => 0 := funext fun a => by fin_cases a <;> rfl

/-- The 512 embedding rows a point works on, read out of the whole embedding. -/
abbrev embSlab (i : grid0.Coords) (x1 : Vec F S8192x128 .f32) : Vec F S512x128 .f32 :=
  View.ld x1 (Rect.unit (s := S8192x128) (k0_off1 i) S512x128.size (k0_off1_inb i))

/-- The 512 belief columns a point works on, read out of the whole belief array. -/
abbrev beliefSlab (i : grid0.Coords) (x0 : Vec F S16x8192 .f32) : Vec F S16x512 .f32 :=
  View.ld x0 (Rect.unit (s := S16x8192) (k0_off2 i) S16x512.size (k0_off2_inb i))

/-- A later point: the output block holding `xo6` and the scratch holding `xs0` end with the slab's contribution added
    to `xo6`, the scratch read but not written. -/
theorem out_B (c : Dev nD) (i : grid0.Coords) (a1 : Memref sig .tc .vmem S16x8192 .f32) (h1 : a1.IsWhole) (a2 : Memref sig .tc .vmem S8192x128 .f32) (h2 : a2.IsWhole) (a3 : Memref sig .tc .vmem S64x128 .f32) (h3 : a3.IsWhole) (a4 : Memref sig .tc .vmem S1x64 .f32) (h4 : a4.IsWhole) (a5 : Memref sig .tc .vmem S64x128 .f32) (h5 : a5.IsWhole) (a6 : Memref sig .tc .vmem S64x1 .f32) (h6 : a6.IsWhole) (a7 : Memref sig .tc .vmem S16x8192 .f32) (h7 : a7.IsWhole) (a8 : Memref sig .tc .vmem S64x8192 .bf16) (h8 : a8.IsWhole) (hc : ¬cond0_0 i)
    (x0 : Vec F S16x8192 .f32) (x1 : Vec F S8192x128 .f32) (x2 : Vec F S64x128 .f32) (x3 : Vec F S1x64 .f32) (x4 : Vec F S64x128 .f32) (x5 : Vec F S64x1 .f32) (xo6 : Vec F S16x8192 .f32) (xs0 : Vec F S64x8192 .bf16) :
    out0_B_6 c i a1 h1 a2 h2 a3 h3 a4 h4 a5 h5 a6 h6 a7 h7 a8 h8 hc x0 x1 x2 x3 x4 x5 xo6 xs0
      = k0_pay3 (embSlab i x1) x2 x3 xs0 (beliefSlab i x0) xo6 := by
  unfold out0_B_6
  rw [View.read_writes_eq_canon _ _ _ (cover0_B_6 c i a1 h1 a2 h2 a3 h3 a4 h4 a5 h5 a6 h6 a7 h7 a8 h8 hc x0 x1 x2 x3 x4 x5 xo6 xs0)]
  unfold kernelRun0_B
  dsimp only
  sl_unfold_words
  rw [View.canon_unit_zero zero_offsets]
  simp only [View.readAt_eq_ld, h1.read_unread, h2.read_unread, h3.read_unread, h4.read_unread, h7.read_unread, h8.read_unread,
    View.ld_unit_zero (S := S16x8192) zero_offsets, View.ld_unit_zero (S := S64x128) zero_offsets,
    View.ld_unit_zero (S := S1x64) zero_offsets, View.ld_unit_zero (S := S64x8192) zero_offsets]
  rfl

/-- The first point: the scratch ends with the transposed key features of the whole embedding. -/
theorem sout_A (c : Dev nD) (i : grid0.Coords) (a1 : Memref sig .tc .vmem S16x8192 .f32) (h1 : a1.IsWhole) (a2 : Memref sig .tc .vmem S8192x128 .f32) (h2 : a2.IsWhole) (a3 : Memref sig .tc .vmem S64x128 .f32) (h3 : a3.IsWhole) (a4 : Memref sig .tc .vmem S1x64 .f32) (h4 : a4.IsWhole) (a5 : Memref sig .tc .vmem S64x128 .f32) (h5 : a5.IsWhole) (a6 : Memref sig .tc .vmem S64x1 .f32) (h6 : a6.IsWhole) (a7 : Memref sig .tc .vmem S16x8192 .f32) (h7 : a7.IsWhole) (a8 : Memref sig .tc .vmem S64x8192 .bf16) (h8 : a8.IsWhole) (hc : cond0_0 i)
    (x0 : Vec F S16x8192 .f32) (x1 : Vec F S8192x128 .f32) (x2 : Vec F S64x128 .f32) (x3 : Vec F S1x64 .f32) (x4 : Vec F S64x128 .f32) (x5 : Vec F S64x1 .f32) :
    sout0_A_0 c i a1 h1 a2 h2 a3 h3 a4 h4 a5 h5 a6 h6 a7 h7 a8 h8 hc x0 x1 x2 x3 x4 x5 = k0_pay1 x4 x1 x5 := by
  unfold sout0_A_0
  rw [View.read_writes_eq_canon _ _ _ (scover0_A_0 c i a1 h1 a2 h2 a3 h3 a4 h4 a5 h5 a6 h6 a7 h7 a8 h8 hc x0 x1 x2 x3 x4 x5)]
  unfold kernelRun0_A
  dsimp only
  sl_unfold_words
  rw [View.canon_unit_zero zero_offsets]
  simp only [View.readAt_eq_ld, h2.read_unread, h5.read_unread, h6.read_unread,
    View.ld_unit_zero (S := S64x128) zero_offsets, View.ld_unit_zero (S := S8192x128) zero_offsets,
    View.ld_unit_zero (S := S64x1) zero_offsets]

/-- The first point: the output block ends with the slab's contribution, computed against the key features just
    stored, added to the zero block just stored. -/
theorem out_A (c : Dev nD) (i : grid0.Coords) (a1 : Memref sig .tc .vmem S16x8192 .f32) (h1 : a1.IsWhole) (a2 : Memref sig .tc .vmem S8192x128 .f32) (h2 : a2.IsWhole) (a3 : Memref sig .tc .vmem S64x128 .f32) (h3 : a3.IsWhole) (a4 : Memref sig .tc .vmem S1x64 .f32) (h4 : a4.IsWhole) (a5 : Memref sig .tc .vmem S64x128 .f32) (h5 : a5.IsWhole) (a6 : Memref sig .tc .vmem S64x1 .f32) (h6 : a6.IsWhole) (a7 : Memref sig .tc .vmem S16x8192 .f32) (h7 : a7.IsWhole) (a8 : Memref sig .tc .vmem S64x8192 .bf16) (h8 : a8.IsWhole) (hc : cond0_0 i)
    (x0 : Vec F S16x8192 .f32) (x1 : Vec F S8192x128 .f32) (x2 : Vec F S64x128 .f32) (x3 : Vec F S1x64 .f32) (x4 : Vec F S64x128 .f32) (x5 : Vec F S64x1 .f32) :
    out0_A_6 c i a1 h1 a2 h2 a3 h3 a4 h4 a5 h5 a6 h6 a7 h7 a8 h8 hc x0 x1 x2 x3 x4 x5
      = k0_pay3 (embSlab i x1) x2 x3 (k0_pay1 x4 x1 x5) (beliefSlab i x0) (k0_pay2 (F := F)) := by
  unfold out0_A_6
  rw [View.read_writes_eq_canon _ _ _ (cover0_A_6 c i a1 h1 a2 h2 a3 h3 a4 h4 a5 h5 a6 h6 a7 h7 a8 h8 hc x0 x1 x2 x3 x4 x5)]
  unfold kernelRun0_A
  dsimp only
  sl_unfold_words
  rw [View.canon_cons_unit_zero (S := S16x8192) zero_offsets]
  simp only [View.readAt_eq_ld, h1.read_unread, h2.read_unread, h3.read_unread, h4.read_unread, h5.read_unread, h6.read_unread,
    View.readCov_unit_zero (S := S64x8192) _ zero_offsets, View.readCov_unit_zero (S := S16x8192) _ zero_offsets,
    View.ld_unit_zero (S := S64x128) zero_offsets, View.ld_unit_zero (S := S1x64) zero_offsets,
    View.ld_unit_zero (S := S8192x128) zero_offsets, View.ld_unit_zero (S := S64x1) zero_offsets]
  rfl

end Cert.KernelIdeal.Hand

end
-- ==== Proof.Dots.lean ====
/-
  The kernel's four matrix products read at one entry on the extended reals, each into the zero accumulator.

  Two contract both operands on their second axis (a weight matrix against embedding rows: entry (a, c) is the sum over
  k of left (a, k) * right (c, k)); two are plain products (entry (a, c) is the sum over k of left (a, k) * right (k, c)).
  The contraction index of each has one axis and is re-indexed by its one coordinate; the operand indices at an output
  entry and a contraction coordinate are read off the dimension numbers axis by axis.
-/
import proofs.«173221_g5935644803188_cont_9to1c4b_610_6_alg».proof.Proof.Gen.KernelIdeal
import Idealize.ShloMosaic.PureOps.Ideal.Laws
import Idealize.ShloMosaic.Lib.ValueIdx

noncomputable section

namespace Cert.KernelIdeal.Hand

open Cert.KernelIdeal Idealize.ShloMosaic Idealize.ShloMosaic.ValueIdx

theorem keyDot_lhs_0 (j : S64x8192.Idx) (q : dot_S64x128_S8192x128_S64x8192_1_1_0_0_n_n.contr.Idx) : (dot_S64x128_S8192x128_S64x8192_1_1_0_0_n_n.lhsIdx j q 0).val = (j 0).val := by
  unfold DotDims.lhsIdx
  rw [dif_neg (show ¬(0 : Fin S64x128.rank) ∈ dot_S64x128_S8192x128_S64x8192_1_1_0_0_n_n.lhsBatch by decide), dif_pos (show (0 : Fin S64x128.rank) ∈ dot_S64x128_S8192x128_S64x8192_1_1_0_0_n_n.lhsNonContracting by decide)]
  rfl
theorem keyDot_lhs_1 (j : S64x8192.Idx) (q : dot_S64x128_S8192x128_S64x8192_1_1_0_0_n_n.contr.Idx) : (dot_S64x128_S8192x128_S64x8192_1_1_0_0_n_n.lhsIdx j q 1).val = (q ⟨0, by decide⟩).val :=
  dot_S64x128_S8192x128_S64x8192_1_1_0_0_n_n.lhsIdx_val_of_single rfl j q
theorem keyDot_rhs_0 (j : S64x8192.Idx) (q : dot_S64x128_S8192x128_S64x8192_1_1_0_0_n_n.contr.Idx) : (dot_S64x128_S8192x128_S64x8192_1_1_0_0_n_n.rhsIdx j q 0).val = (j 1).val := by
  unfold DotDims.rhsIdx
  rw [dif_neg (show ¬(0 : Fin S8192x128.rank) ∈ dot_S64x128_S8192x128_S64x8192_1_1_0_0_n_n.rhsBatch by decide), dif_pos (show (0 : Fin S8192x128.rank) ∈ dot_S64x128_S8192x128_S64x8192_1_1_0_0_n_n.rhsNonContracting by decide)]
  rfl
theorem keyDot_rhs_1 (j : S64x8192.Idx) (q : dot_S64x128_S8192x128_S64x8192_1_1_0_0_n_n.contr.Idx) : (dot_S64x128_S8192x128_S64x8192_1_1_0_0_n_n.rhsIdx j q 1).val = (q ⟨0, by decide⟩).val :=
  dot_S64x128_S8192x128_S64x8192_1_1_0_0_n_n.rhsIdx_val_of_single rfl j q

/-- Key weights against every embedding row: entry (h, s) is the sum over d of W (h, d) * X (s, d). -/
theorem keyDot_apply {φ₁ φ₂ : FTy} (W : FVec Ideal S64x128 φ₁) (X : FVec Ideal S8192x128 φ₂) (a : Fin 64) (c : Fin 8192) :
    matmul dot_S64x128_S8192x128_S64x8192_1_1_0_0_n_n none W X (constant S64x8192 .f32 0x00000000#32) (ix2 a c) = ∑ k : Fin 128, W (ix2 a k) * X (ix2 c k) := by
  simp only [matmul]
  rw [Ideal.matmul_constant_zero_apply, ← Equiv.sum_comp (contrEquiv1 dot_S64x128_S8192x128_S64x8192_1_1_0_0_n_n 128 rfl rfl).symm]
  refine Finset.sum_congr rfl fun k _ => ?_
  have hk := contrEquiv1_symm_val dot_S64x128_S8192x128_S64x8192_1_1_0_0_n_n 128 rfl rfl k
  have el : dot_S64x128_S8192x128_S64x8192_1_1_0_0_n_n.lhsIdx (ix2 a c) ((contrEquiv1 dot_S64x128_S8192x128_S64x8192_1_1_0_0_n_n 128 rfl rfl).symm k) = ix2 a k := funext fun b => Fin.ext (by
    match b with
    | ⟨0, _⟩ => exact keyDot_lhs_0 _ _
    | ⟨1, _⟩ => exact (keyDot_lhs_1 _ _).trans hk)
  have er : dot_S64x128_S8192x128_S64x8192_1_1_0_0_n_n.rhsIdx (ix2 a c) ((contrEquiv1 dot_S64x128_S8192x128_S64x8192_1_1_0_0_n_n 128 rfl rfl).symm k) = ix2 c k := funext fun b => Fin.ext (by
    match b with
    | ⟨0, _⟩ => exact keyDot_rhs_0 _ _
    | ⟨1, _⟩ => exact (keyDot_rhs_1 _ _).trans hk)
  rw [el, er]

theorem queryDot_lhs_0 (j : S512x64.Idx) (q : dot_S512x128_S64x128_S512x64_1_1_0_0_n_n.contr.Idx) : (dot_S512x128_S64x128_S512x64_1_1_0_0_n_n.lhsIdx j q 0).val = (j 0).val := by
  unfold DotDims.lhsIdx
  rw [dif_neg (show ¬(0 : Fin S512x128.rank) ∈ dot_S512x128_S64x128_S512x64_1_1_0_0_n_n.lhsBatch by decide), dif_pos (show (0 : Fin S512x128.rank) ∈ dot_S512x128_S64x128_S512x64_1_1_0_0_n_n.lhsNonContracting by decide)]
  rfl
theorem queryDot_lhs_1 (j : S512x64.Idx) (q : dot_S512x128_S64x128_S512x64_1_1_0_0_n_n.contr.Idx) : (dot_S512x128_S64x128_S512x64_1_1_0_0_n_n.lhsIdx j q 1).val = (q ⟨0, by decide⟩).val :=
  dot_S512x128_S64x128_S512x64_1_1_0_0_n_n.lhsIdx_val_of_single rfl j q
theorem queryDot_rhs_0 (j : S512x64.Idx) (q : dot_S512x128_S64x128_S512x64_1_1_0_0_n_n.contr.Idx) : (dot_S512x128_S64x128_S512x64_1_1_0_0_n_n.rhsIdx j q 0).val = (j 1).val := by
  unfold DotDims.rhsIdx
  rw [dif_neg (show ¬(0 : Fin S64x128.rank) ∈ dot_S512x128_S64x128_S512x64_1_1_0_0_n_n.rhsBatch by decide), dif_pos (show (0 : Fin S64x128.rank) ∈ dot_S512x128_S64x128_S512x64_1_1_0_0_n_n.rhsNonContracting by decide)]
  rfl
theorem queryDot_rhs_1 (j : S512x64.Idx) (q : dot_S512x128_S64x128_S512x64_1_1_0_0_n_n.contr.Idx) : (dot_S512x128_S64x128_S512x64_1_1_0_0_n_n.rhsIdx j q 1).val = (q ⟨0, by decide⟩).val :=
  dot_S512x128_S64x128_S512x64_1_1_0_0_n_n.rhsIdx_val_of_single rfl j q

/-- A slab of embedding rows against the query weights: entry (r, h) is the sum over d of W (r, d) * X (h, d). -/
theorem queryDot_apply {φ₁ φ₂ : FTy} (W : FVec Ideal S512x128 φ₁) (X : FVec Ideal S64x128 φ₂) (a : Fin 512) (c : Fin 64) :
    matmul dot_S512x128_S64x128_S512x64_1_1_0_0_n_n none W X (constant S512x64 .f32 0x00000000#32) (ix2 a c) = ∑ k : Fin 128, W (ix2 a k) * X (ix2 c k) := by
  simp only [matmul]
  rw [Ideal.matmul_constant_zero_apply, ← Equiv.sum_comp (contrEquiv1 dot_S512x128_S64x128_S512x64_1_1_0_0_n_n 128 rfl rfl).symm]
  refine Finset.sum_congr rfl fun k _ => ?_
  have hk := contrEquiv1_symm_val dot_S512x128_S64x128_S512x64_1_1_0_0_n_n 128 rfl rfl k
  have el : dot_S512x128_S64x128_S512x64_1_1_0_0_n_n.lhsIdx (ix2 a c) ((contrEquiv1 dot_S512x128_S64x128_S512x64_1_1_0_0_n_n 128 rfl rfl).symm k) = ix2 a k := funext fun b => Fin.ext (by
    match b with
    | ⟨0, _⟩ => exact queryDot_lhs_0 _ _
    | ⟨1, _⟩ => exact (queryDot_lhs_1 _ _).trans hk)
  have er : dot_S512x128_S64x128_S512x64_1_1_0_0_n_n.rhsIdx (ix2 a c) ((contrEquiv1 dot_S512x128_S64x128_S512x64_1_1_0_0_n_n 128 rfl rfl).symm k) = ix2 c k := funext fun b => Fin.ext (by
    match b with
    | ⟨0, _⟩ => exact queryDot_rhs_0 _ _
    | ⟨1, _⟩ => exact (queryDot_rhs_1 _ _).trans hk)
  rw [el, er]

theorem logitDot_lhs_0 (j : S512x8192.Idx) (q : dot_S512x64_S64x8192_S512x8192_1_0_0_1_n_n.contr.Idx) : (dot_S512x64_S64x8192_S512x8192_1_0_0_1_n_n.lhsIdx j q 0).val = (j 0).val := by
  unfold DotDims.lhsIdx
  rw [dif_neg (show ¬(0 : Fin S512x64.rank) ∈ dot_S512x64_S64x8192_S512x8192_1_0_0_1_n_n.lhsBatch by decide), dif_pos (show (0 : Fin S512x64.rank) ∈ dot_S512x64_S64x8192_S512x8192_1_0_0_1_n_n.lhsNonContracting by decide)]
  rfl
theorem logitDot_lhs_1 (j : S512x8192.Idx) (q : dot_S512x64_S64x8192_S512x8192_1_0_0_1_n_n.contr.Idx) : (dot_S512x64_S64x8192_S512x8192_1_0_0_1_n_n.lhsIdx j q 1).val = (q ⟨0, by decide⟩).val :=
  dot_S512x64_S64x8192_S512x8192_1_0_0_1_n_n.lhsIdx_val_of_single rfl j q
theorem logitDot_rhs_1 (j : S512x8192.Idx) (q : dot_S512x64_S64x8192_S512x8192_1_0_0_1_n_n.contr.Idx) : (dot_S512x64_S64x8192_S512x8192_1_0_0_1_n_n.rhsIdx j q 1).val = (j 1).val := by
  unfold DotDims.rhsIdx
  rw [dif_neg (show ¬(1 : Fin S64x8192.rank) ∈ dot_S512x64_S64x8192_S512x8192_1_0_0_1_n_n.rhsBatch by decide), dif_pos (show (1 : Fin S64x8192.rank) ∈ dot_S512x64_S64x8192_S512x8192_1_0_0_1_n_n.rhsNonContracting by decide)]
  rfl
theorem logitDot_rhs_0 (j : S512x8192.Idx) (q : dot_S512x64_S64x8192_S512x8192_1_0_0_1_n_n.contr.Idx) : (dot_S512x64_S64x8192_S512x8192_1_0_0_1_n_n.rhsIdx j q 0).val = (q ⟨0, by decide⟩).val :=
  dot_S512x64_S64x8192_S512x8192_1_0_0_1_n_n.rhsIdx_val_of_single rfl j q

/-- Query features against the transposed key features: entry (r, j) is the sum over h of W (r, h) * X (h, j). -/
theorem logitDot_apply {φ₁ φ₂ : FTy} (W : FVec Ideal S512x64 φ₁) (X : FVec Ideal S64x8192 φ₂) (a : Fin 512) (c : Fin 8192) :
    matmul dot_S512x64_S64x8192_S512x8192_1_0_0_1_n_n none W X (constant S512x8192 .f32 0x00000000#32) (ix2 a c) = ∑ k : Fin 64, W (ix2 a k) * X (ix2 k c) := by
  simp only [matmul]
  rw [Ideal.matmul_constant_zero_apply, ← Equiv.sum_comp (contrEquiv1 dot_S512x64_S64x8192_S512x8192_1_0_0_1_n_n 64 rfl rfl).symm]
  refine Finset.sum_congr rfl fun k _ => ?_
  have hk := contrEquiv1_symm_val dot_S512x64_S64x8192_S512x8192_1_0_0_1_n_n 64 rfl rfl k
  have el : dot_S512x64_S64x8192_S512x8192_1_0_0_1_n_n.lhsIdx (ix2 a c) ((contrEquiv1 dot_S512x64_S64x8192_S512x8192_1_0_0_1_n_n 64 rfl rfl).symm k) = ix2 a k := funext fun b => Fin.ext (by
    match b with
    | ⟨0, _⟩ => exact logitDot_lhs_0 _ _
    | ⟨1, _⟩ => exact (logitDot_lhs_1 _ _).trans hk)
  have er : dot_S512x64_S64x8192_S512x8192_1_0_0_1_n_n.rhsIdx (ix2 a c) ((contrEquiv1 dot_S512x64_S64x8192_S512x8192_1_0_0_1_n_n 64 rfl rfl).symm k) = ix2 k c := funext fun b => Fin.ext (by
    match b with
    | ⟨0, _⟩ => exact (logitDot_rhs_0 _ _).trans hk
    | ⟨1, _⟩ => exact logitDot_rhs_1 _ _)
  rw [el, er]

theorem outDot_lhs_0 (j : S16x8192.Idx) (q : dot_S16x512_S512x8192_S16x8192_1_0_0_1_n_n.contr.Idx) : (dot_S16x512_S512x8192_S16x8192_1_0_0_1_n_n.lhsIdx j q 0).val = (j 0).val := by
  unfold DotDims.lhsIdx
  rw [dif_neg (show ¬(0 : Fin S16x512.rank) ∈ dot_S16x512_S512x8192_S16x8192_1_0_0_1_n_n.lhsBatch by decide), dif_pos (show (0 : Fin S16x512.rank) ∈ dot_S16x512_S512x8192_S16x8192_1_0_0_1_n_n.lhsNonContracting by decide)]
  rfl
theorem outDot_lhs_1 (j : S16x8192.Idx) (q : dot_S16x512_S512x8192_S16x8192_1_0_0_1_n_n.contr.Idx) : (dot_S16x512_S512x8192_S16x8192_1_0_0_1_n_n.lhsIdx j q 1).val = (q ⟨0, by decide⟩).val :=
  dot_S16x512_S512x8192_S16x8192_1_0_0_1_n_n.lhsIdx_val_of_single rfl j q
theorem outDot_rhs_1 (j : S16x8192.Idx) (q : dot_S16x512_S512x8192_S16x8192_1_0_0_1_n_n.contr.Idx) : (dot_S16x512_S512x8192_S16x8192_1_0_0_1_n_n.rhsIdx j q 1).val = (j 1).val := by
  unfold DotDims.rhsIdx
  rw [dif_neg (show ¬(1 : Fin S512x8192.rank) ∈ dot_S16x512_S512x8192_S16x8192_1_0_0_1_n_n.rhsBatch by decide), dif_pos (show (1 : Fin S512x8192.rank) ∈ dot_S16x512_S512x8192_S16x8192_1_0_0_1_n_n.rhsNonContracting by decide)]
  rfl
theorem outDot_rhs_0 (j : S16x8192.Idx) (q : dot_S16x512_S512x8192_S16x8192_1_0_0_1_n_n.contr.Idx) : (dot_S16x512_S512x8192_S16x8192_1_0_0_1_n_n.rhsIdx j q 0).val = (q ⟨0, by decide⟩).val :=
  dot_S16x512_S512x8192_S16x8192_1_0_0_1_n_n.rhsIdx_val_of_single rfl j q

/-- Normalised beliefs against the slab's weights: entry (b, j) is the sum over r of W (b, r) * X (r, j). -/
theorem outDot_apply {φ₁ φ₂ : FTy} (W : FVec Ideal S16x512 φ₁) (X : FVec Ideal S512x8192 φ₂) (a : Fin 16) (c : Fin 8192) :
    matmul dot_S16x512_S512x8192_S16x8192_1_0_0_1_n_n none W X (constant S16x8192 .f32 0x00000000#32) (ix2 a c) = ∑ k : Fin 512, W (ix2 a k) * X (ix2 k c) := by
  simp only [matmul]
  rw [Ideal.matmul_constant_zero_apply, ← Equiv.sum_comp (contrEquiv1 dot_S16x512_S512x8192_S16x8192_1_0_0_1_n_n 512 rfl rfl).symm]
  refine Finset.sum_congr rfl fun k _ => ?_
  have hk := contrEquiv1_symm_val dot_S16x512_S512x8192_S16x8192_1_0_0_1_n_n 512 rfl rfl k
  have el : dot_S16x512_S512x8192_S16x8192_1_0_0_1_n_n.lhsIdx (ix2 a c) ((contrEquiv1 dot_S16x512_S512x8192_S16x8192_1_0_0_1_n_n 512 rfl rfl).symm k) = ix2 a k := funext fun b => Fin.ext (by
    match b with
    | ⟨0, _⟩ => exact outDot_lhs_0 _ _
    | ⟨1, _⟩ => exact (outDot_lhs_1 _ _).trans hk)
  have er : dot_S16x512_S512x8192_S16x8192_1_0_0_1_n_n.rhsIdx (ix2 a c) ((contrEquiv1 dot_S16x512_S512x8192_S16x8192_1_0_0_1_n_n 512 rfl rfl).symm k) = ix2 k c := funext fun b => Fin.ext (by
    match b with
    | ⟨0, _⟩ => exact (outDot_rhs_0 _ _).trans hk
    | ⟨1, _⟩ => exact outDot_rhs_1 _ _)
  rw [el, er]

end Cert.KernelIdeal.Hand

end
-- ==== Proof.LibPlainDot.lean ====
/-
  General facts about a matrix product of the plain kind, read at one entry on the extended reals.

  The product of an M x K left operand with a K x N right operand, no batch axis, the left contracted on its second
  axis and the right on its first, accumulated into the zero array: entry (a, j) is the sum over k of
  left (a, k) * right (k, j).  The contraction index of such a product has one axis, of extent K, and is re-indexed by
  its one coordinate; the operand indices at output (a, j) and contraction k are (a, k) and (k, j).

  A column [M, 1] broadcast along the second axis to [M, N] reads, at (a, j), the column's entry (a, 0).

  A record of dimension numbers printed with a program is this plain one whenever its six lists are
  [1], [0], [0], [1], [], [] (the seventh field is a proof), by reflexivity; the lemmas are stated for
  DotDims.plain M K N so that they serve every such record.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable (M K N : Nat)

/-- The left operand's row coordinate at output index j is j's row. -/
theorem plain_lhs_row (j : (⟨2, ![M, N]⟩ : Shape).Idx) (q : (DotDims.plain M K N).contr.Idx) :
    ((DotDims.plain M K N).lhsIdx j q 0).val = (j 0).val := rfl
/-- The left operand's column coordinate is the contraction index's one coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's row coordinate is the contraction index's one coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- The right operand's column coordinate at output index j is j's column. -/
theorem plain_rhs_col (j : (⟨2, ![M, N]⟩ : Shape).Idx) (q : (DotDims.plain M K N).contr.Idx) :
    ((DotDims.plain M K N).rhsIdx j q 1).val = (j 1).val := rfl

/-- A plain matrix product into the zero accumulator, at entry (a, j): the sum over k of W (a, k) * X (k, j). -/
theorem matmul_plain_zero (W : FVec Ideal ⟨2, ![M, K]⟩ .f32) (X : FVec Ideal ⟨2, ![K, N]⟩ .f32) (a : Fin M) (j : Fin N) :
    matmul (DotDims.plain M K N) none W X (constant ⟨2, ![M, N]⟩ .f32 0x00000000#32) (ix2 a j)
      = ∑ k : Fin K, W (ix2 a k) * X (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun b => Fin.ext (by
      match b with
      | ⟨0, _⟩ => exact plain_lhs_row M K N _ _
      | ⟨1, _⟩ => exact (plain_lhs_col M K N _ _).trans hk)
  have er : (DotDims.plain M K N).rhsIdx (ix2 a j) ((contrEquiv1 (DotDims.plain M K N) K rfl rfl).symm k) = ix2 k j :=
    funext fun b => Fin.ext (by
      match b with
      | ⟨0, _⟩ => exact (plain_rhs_row M K N _ _).trans hk
      | ⟨1, _⟩ => exact plain_rhs_col M K N _ _)
  rw [el, er]

/-- A column broadcast along the second axis reads the column's entry of the same row. -/
theorem broadcast_col {α : Type} (b : (⟨2, ![M, 1]⟩ : Shape).Idx → α) (hb : (⟨2, ![M, 1]⟩ : Shape).Broadcasts ⟨2, ![M, N]⟩)
    (a : Fin M) (j : Fin N) : broadcastTo ⟨2, ![M, N]⟩ b hb (ix2 a j) = b (ix2 a 0) :=
  broadcastTo_apply b hb (ix2 a j) (ix2 a 0) (fun ax => by
    match ax with
    | ⟨0, _⟩ =>
      show a.val = if M = 1 then 0 else a.val
      split
      · have := a.isLt; omega
      · rfl
    | ⟨1, _⟩ =>
      show 0 = if (1 : Nat) = 1 then 0 else j.val
      rw [if_pos rfl])

end Cert.LibPlainDot

end
-- ==== Proof.Payload.lean ====
/-
  The body's three stored values read at one entry on the extended reals.

  The scratch receives the transposed key features: entry (h, s) is the sum over d of Wk (h, d) * E (s, d) plus the key
  bias column at h. The output block is first zeroed. The accumulating store adds to what the block held, at (b, j), the
  sum over the slab's 512 rows r of (belief (b, r) / z r) * exp (l r j), where l r j is the sum over the 64 features h
  of ((sum over d of E (r, d) * Wq (h, d)) + bq h) * kT (h, j) and z r is the sum over all 8192 columns of exp (l r .).
  Changes of float format are the identity on the extended reals; the lane sum is a plain sum; the column of row sums,
  transposed to a row and broadcast down the 16 belief rows, is read at (b, r) as the sum of row r.
-/
import proofs.«173221_g5935644803188_cont_9to1c4b_610_6_alg».proof.Proof.Gen.KernelIdeal.Skeleton
import proofs.«173221_g5935644803188_cont_9to1c4b_610_6_alg».proof.Proof.Dots
import proofs.«173221_g5935644803188_cont_9to1c4b_610_6_alg».proof.Proof.LibPlainDot
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- The transposed key features stored into the scratch, at (h, s). -/
theorem keyPayload_apply (wk : FVec Ideal S64x128 .f32) (e : FVec Ideal S8192x128 .f32) (bk : FVec Ideal S64x1 .f32)
    (h : Fin 64) (s : Fin 8192) :
    k0_pay1 (F := Ideal) wk e bk (ix2 h s) = (∑ d : Fin 128, wk (ix2 h d) * e (ix2 s d)) + bk (ix2 h (0 : Fin 1)) := by
  unfold k0_pay1
  simp only [shapeCast_self]
  show (matmul dot_S64x128_S8192x128_S64x8192_1_1_0_0_n_n none wk e (constant S64x8192 .f32 0x00000000#32) (ix2 h s) : EReal) + broadcastTo S64x8192 bk _ (ix2 h s) = _
  rw [keyDot_apply, Cert.LibPlainDot.broadcast_col 64 8192 bk _ h s]

/-- The zero block, at any entry. -/
theorem zeroPayload_apply (i : S16x8192.Idx) : k0_pay2 (F := Ideal) i = 0 := by
  unfold k0_pay2
  show Ideal.ofBits .f32 0x00000000#32 = 0
  exact Ideal.ofBits_zero_f32

/-! ## The accumulating store -/

/-- The slab's query features at (r, h): the embedding row against the query weights, plus the bias row at h. -/
def slabQuery (e5 : FVec Ideal S512x128 .f32) (wq : FVec Ideal S64x128 .f32) (bq : FVec Ideal S1x64 .f32)
    (r : Fin 512) (h : Fin 64) : EReal :=
  (∑ d : Fin 128, e5 (ix2 r d) * wq (ix2 h d)) + bq (ix2 (0 : Fin 1) h)

/-- The slab's logit at (r, j): the query features against the stored transposed key features. -/
def slabLogit (e5 : FVec Ideal S512x128 .f32) (wq : FVec Ideal S64x128 .f32) (bq : FVec Ideal S1x64 .f32)
    (kt : FVec Ideal S64x8192 .bf16) (r : Fin 512) (j : Fin 8192) : EReal :=
  ∑ h : Fin 64, slabQuery e5 wq bq r h * kt (ix2 h j)

section Accumulate

variable (e5 : FVec Ideal S512x128 .f32) (wq : FVec Ideal S64x128 .f32) (bq : FVec Ideal S1x64 .f32)
  (kt : FVec Ideal S64x8192 .bf16) (bl : FVec Ideal S16x512 .f32) (acc : FVec Ideal S16x8192 .f32)

/-- The query features as the body forms them (a product, a broadcast bias row, a change of format). -/
def bodyQuery : FVec Ideal S512x64 .bf16 :=
  truncf .bf16 (addf (matmul dot_S512x128_S64x128_S512x64_1_1_0_0_n_n none e5 wq (constant S512x64 .f32 0x00000000#32))
    (broadcastTo S512x64 (shapeCast S1x64 bq Facts₀.shapeCasts_S1x64_S1x64) Facts₀.broadcasts_S1x64_S512x64)) Facts₀.bitsLt_bf16_f32

theorem bodyQuery_apply (r : Fin 512) (h : Fin 64) : bodyQuery e5 wq bq (ix2 r h) = slabQuery e5 wq bq r h := by
  unfold bodyQuery slabQuery
  simp only [shapeCast_self]
  show (matmul dot_S512x128_S64x128_S512x64_1_1_0_0_n_n none e5 wq (constant S512x64 .f32 0x00000000#32) (ix2 r h) : EReal) + broadcastTo S512x64 bq _ (ix2 r h) = _
  rw [queryDot_apply, broadcastTo_1b_ab_apply bq _ r h]

/-- The exponentiated logits as the body forms them. -/
def bodyExp : FVec Ideal S512x8192 .f32 :=
  exp (matmul dot_S512x64_S64x8192_S512x8192_1_0_0_1_n_n none (bodyQuery e5 wq bq) kt (constant S512x8192 .f32 0x00000000#32))

theorem bodyExp_apply (r : Fin 512) (j : Fin 8192) :
    bodyExp e5 wq bq kt (ix2 r j) = Ideal.exp (slabLogit e5 wq bq kt r j) := by
  unfold bodyExp slabLogit
  show Ideal.exp (matmul dot_S512x64_S64x8192_S512x8192_1_0_0_1_n_n none (bodyQuery e5 wq bq) kt (constant S512x8192 .f32 0x00000000#32) (ix2 r j)) = _
  rw [logitDot_apply]
  exact congrArg Ideal.exp (Finset.sum_congr rfl fun h _ => by rw [bodyQuery_apply])

/-- The row sums as the body forms them: the lane sum, made a column, transposed to a row, broadcast down the belief rows. -/
def bodyNorm : FVec Ideal S16x512 .f32 :=
  broadcastTo S16x512 (transpose S1x512 [1, 0]
    (shapeCast S512x1 (multiReduction .add [1] S512 (bodyExp e5 wq bq kt) 0x00000000#32 Facts₀.reduces_S512x8192_S512 (.inl rfl) rfl)
      Facts₀.shapeCasts_S512_S512x1) Facts₀.transposes_S512x1_p1_0_S1x512) Facts₀.broadcasts_S1x512_S16x512

/-- Row r with the column coordinate put back on the summed axis is the entry (r, k). -/
theorem lift_lane (hr : S512x8192.Reduces [1] S512) (r : Fin 512) (k : Fin (S512x8192.size 1)) :
    hr.lift (ix1 r) k = ix2 r (⟨k.val, k.isLt⟩ : Fin 8192) := by
  funext c; apply Fin.ext
  match c with
  | ⟨0, _⟩ => rfl
  | ⟨1, _⟩ => rfl

/-- The lane sum of an array of extended reals at row r is the sum of the row. -/
theorem laneSum_apply (src : FVec Ideal S512x8192 .f32) (hr : S512x8192.Reduces [1] S512) (r : Fin 512) :
    multiReduction .add [1] S512 src 0x00000000#32 hr (.inl rfl) rfl (ix1 r) = ∑ k : Fin 8192, src (ix2 r k) := by
  refine (Ideal.multiReduction_add_single src 0x00000000#32 hr (.inl rfl) rfl (ix1 r)).trans ?_
  exact Finset.sum_congr rfl fun k _ => congrArg src (lift_lane hr r k)

/-- A vector made a column reads, at (r, 0), the vector at r. -/
theorem column_apply {α : Type} (x : S512.Idx → α) (h : S512.ShapeCasts S512x1) (r : Fin 512) :
    shapeCast S512x1 x h (ix2 r (0 : Fin 1)) = x (ix1 r) :=
  shapeCast_apply x h _ _ (by
    rw [Shape.rowMajor_val_one, Shape.rowMajor_val_two]
    show r.val = r.val * 1 + 0
    omega)

theorem bodyNorm_apply (b : Fin 16) (r : Fin 512) :
    bodyNorm e5 wq bq kt (ix2 b r) = ∑ j : Fin 8192, Ideal.exp (slabLogit e5 wq bq kt r j) := by
  unfold bodyNorm
  rw [broadcastTo_1b_ab_apply _ _ b r, transpose_ix2_apply _ _ (0 : Fin 1) r, column_apply]
  refine (laneSum_apply (bodyExp e5 wq bq kt) Facts₀.reduces_S512x8192_S512 r).trans ?_
  exact Finset.sum_congr rfl fun j _ => bodyExp_apply e5 wq bq kt r j

/-- The accumulating store's payload is the printed chain over these named parts. -/
theorem accPayload_eq :
    k0_pay3 (F := Ideal) e5 wq bq kt bl acc
      = addf acc (matmul dot_S16x512_S512x8192_S16x8192_1_0_0_1_n_n none (truncf .bf16 (divf bl (bodyNorm e5 wq bq kt)) Facts₀.bitsLt_bf16_f32)
          (truncf .bf16 (bodyExp e5 wq bq kt) Facts₀.bitsLt_bf16_f32) (constant S16x8192 .f32 0x00000000#32)) := by
  unfold k0_pay3 bodyNorm bodyExp bodyQuery
  simp only [shapeCast_self]

/-- The accumulating store at (b, j): what the block held plus the slab's contribution. -/
theorem accPayload_apply (b : Fin 16) (j : Fin 8192) :
    k0_pay3 (F := Ideal) e5 wq bq kt bl acc (ix2 b j)
      = acc (ix2 b j) + ∑ r : Fin 512, Ideal.div (bl (ix2 b r)) (∑ j' : Fin 8192, Ideal.exp (slabLogit e5 wq bq kt r j'))
          * Ideal.exp (slabLogit e5 wq bq kt r j) := by
  rw [accPayload_eq]
  show acc (ix2 b j) + matmul dot_S16x512_S512x8192_S16x8192_1_0_0_1_n_n none (truncf .bf16 (divf bl (bodyNorm e5 wq bq kt)) Facts₀.bitsLt_bf16_f32)
      (truncf .bf16 (bodyExp e5 wq bq kt) Facts₀.bitsLt_bf16_f32) (constant S16x8192 .f32 0x00000000#32) (ix2 b j) = _
  rw [outDot_apply]
  refine congrArg (acc (ix2 b j) + ·) (Finset.sum_congr rfl fun r _ => ?_)
  show Ideal.div (bl (ix2 b r)) (bodyNorm e5 wq bq kt (ix2 b r)) * bodyExp e5 wq bq kt (ix2 r j) = _
  rw [bodyNorm_apply, bodyExp_apply]

end Accumulate

end Cert.KernelIdeal.Hand

end
-- ==== Proof.Spec.lean ====
/-
  The factorized transition on the extended reals: the two closed forms the two programs compute, as functions of the
  six argument arrays, entry by entry.

  With the state embedding E (8192 x 128), the key weights Wk (64 x 128) and bias bk, the query weights Wq (64 x 128)
  and bias bq, and the beliefs B (16 x 8192):
    keyT h s   = (sum over d of Wk(h,d) * E(s,d)) + bk h           the key features, transposed
    query i h  = (sum over d of E(i,d) * Wq(h,d)) + bq h           the query features
    logit i j  = sum over h of query i h * keyT h j
    expo i j   = exp (logit i j),   rowSum i = sum over j of expo i j.
  One program normalises the belief first and accumulates slab by slab of 512 source states:
    fused b j  = sum over t < 16 of  sum over r < 512 of  (B(b, 512 t + r) / rowSum (512 t + r)) * expo (512 t + r) j.
  The other forms the row-stochastic matrix with the row maximum subtracted inside the exponential:
    rowMax i   = max (-inf) (the maximum over j of logit i j, folded from -inf)
    dense b j  = sum over k of B(b,k) * ( exp (logit k j - rowMax k) / (0 + sum over j' of exp (logit k j' - rowMax k)) ).
  Division, exponential and the two literals are the idealized ones (division by zero and the infinities have their
  conventional values there); nothing here assumes the entries finite.
-/
import Idealize.ShloMosaic.PureOps.Ideal
import Idealize.ShloMosaic.Lib.ValueIdx

noncomputable section

namespace Cert.Transition

open Idealize.ShloMosaic Idealize.ShloMosaic.ValueIdx

/-- A matrix of extended reals with literal extents. -/
abbrev Arr2 (n k : Nat) : Type := (⟨2, ![n, k]⟩ : Shape).Idx → EReal
/-- A vector of extended reals with a literal extent. -/
abbrev Arr1 (n : Nat) : Type := (⟨1, ![n]⟩ : Shape).Idx → EReal

/-- The word of minus infinity, read on the extended reals. -/
abbrev negInf : EReal := Ideal.ofBits .f32 0xFF800000#32
/-- The word of zero, read on the extended reals. -/
abbrev zeroW : EReal := Ideal.ofBits .f32 0x00000000#32

variable (belief : Arr2 16 8192) (emb : Arr2 8192 128) (wk : Arr2 64 128) (bk : Arr1 64) (wq : Arr2 64 128) (bq : Arr1 64)

/-- The key features, transposed: feature `h` of state `s`. -/
def keyT (h : Fin 64) (s : Fin 8192) : EReal := (∑ d : Fin 128, wk (ix2 h d) * emb (ix2 s d)) + bk (ix1 h)

/-- The query features: feature `h` of state `i`. -/
def query (i : Fin 8192) (h : Fin 64) : EReal := (∑ d : Fin 128, emb (ix2 i d) * wq (ix2 h d)) + bq (ix1 h)

/-- The transition logit from state `i` to state `j`. -/
def logit (i j : Fin 8192) : EReal := ∑ h : Fin 64, query emb wq bq i h * keyT emb wk bk h j

/-- The unnormalised transition weight. -/
def expo (i j : Fin 8192) : EReal := Ideal.exp (logit emb wk bk wq bq i j)

/-- The normaliser of source state `i`. -/
def rowSum (i : Fin 8192) : EReal := ∑ j : Fin 8192, expo emb wk bk wq bq i j

/-- Source state `512 t + r`: row `r` of slab `t`. -/
def stateOf (t : Fin 16) (r : Fin 512) : Fin 8192 := ⟨512 * t.val + r.val, by have := t.isLt; have := r.isLt; omega⟩

/-- One slab's contribution to entry (b, j): the normalised beliefs of its 512 source states against their weights. -/
def slabTerm (b : Fin 16) (j : Fin 8192) (t : Fin 16) : EReal :=
  ∑ r : Fin 512, Ideal.div (belief (ix2 b (stateOf t r))) (rowSum emb wk bk wq bq (stateOf t r)) * expo emb wk bk wq bq (stateOf t r) j

/-- The slab-by-slab form at entry (b, j). -/
def fused (b : Fin 16) (j : Fin 8192) : EReal := ∑ t : Fin 16, slabTerm belief emb wk bk wq bq b j t

/-- The row maximum as the dense form takes it: the fold of `max` from minus infinity, then once more against minus infinity. -/
def rowMax (i : Fin 8192) : EReal :=
  max negInf ((Finset.univ : Finset (Fin 8192)).fold max negInf (fun j => logit emb wk bk wq bq i j))

/-- The dense form's transition probability from `k` to `j`. -/
def prob (k j : Fin 8192) : EReal :=
  Ideal.div (Ideal.exp (logit emb wk bk wq bq k j - rowMax emb wk bk wq bq k))
    (zeroW + ∑ j' : Fin 8192, Ideal.exp (logit emb wk bk wq bq k j' - rowMax emb wk bk wq bq k))

/-- The dense form at entry (b, j). -/
def dense (b : Fin 16) (j : Fin 8192) : EReal := ∑ k : Fin 8192, belief (ix2 b k) * prob emb wk bk wq bq k j

/-- The slab-by-slab form as an array. -/
def fusedArr : Arr2 16 8192 := fun i => fused belief emb wk bk wq bq (i 0) (i 1)

/-- The dense form as an array. -/
def denseArr : Arr2 16 8192 := fun i => dense belief emb wk bk wq bq (i 0) (i 1)

end Cert.Transition

end
-- ==== Proof.KernelValue.lean ====
/-
  The kernel's result array on the extended reals: the slab-by-slab form of the factorized transition.

  Every input window's block is its whole array at every grid point (all index maps are constant), the two bias windows
  hold the biases recast as a row and as a column. Point t reads rows 512 t .. 512 t + 511 of the embedding and the same
  columns of the beliefs. By induction over the points, after point n the key scratch holds the transposed key features
  of the whole embedding (stored at point 0, kept afterwards) and the output block holds the sum of the contributions of
  slabs 0 .. n; the one write-back, after the last point, puts the block - the whole array - into the result.
-/
import proofs.«173221_g5935644803188_cont_9to1c4b_610_6_alg».proof.Proof.Gen.KernelIdeal.Value
import proofs.«173221_g5935644803188_cont_9to1c4b_610_6_alg».proof.Proof.Pieces
import proofs.«173221_g5935644803188_cont_9to1c4b_610_6_alg».proof.Proof.Payload
import proofs.«173221_g5935644803188_cont_9to1c4b_610_6_alg».proof.Proof.Spec
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Value Cert.Transition

variable (m : (ℓ : Loc nD τ sig) → Buf (Elt Ideal) ℓ) (ρ : Dev nD → PrngReg)

/-! ## The arrays, by their literal types -/

abbrev belA (c : Dev nD) : FVec Ideal S16x8192 .f32 := m ((c : Thread nD τ).loc main_arg0)
abbrev embA (c : Dev nD) : FVec Ideal S8192x128 .f32 := m ((c : Thread nD τ).loc main_arg1)
abbrev wkA (c : Dev nD) : FVec Ideal S64x128 .f32 := m ((c : Thread nD τ).loc main_arg2)
abbrev bkV (c : Dev nD) : FVec Ideal S64 .f32 := m ((c : Thread nD τ).loc main_arg3)
abbrev wqA (c : Dev nD) : FVec Ideal S64x128 .f32 := m ((c : Thread nD τ).loc main_arg4)
abbrev bqV (c : Dev nD) : FVec Ideal S64 .f32 := m ((c : Thread nD τ).loc main_arg5)
/-- The query bias as the region finds it: recast as a row. -/
abbrev bqRow (c : Dev nD) : FVec Ideal S1x64 .f32 := V m c main_v0
/-- The key bias as the region finds it: recast as a column. -/
abbrev bkCol (c : Dev nD) : FVec Ideal S64x1 .f32 := V m c main_v1

/-- A grid point as a number below 16. -/
abbrev pt (t : Fin cfg0.N) : Fin 16 := ⟨t.val, lt_of_lt_of_eq t.isLt N_0⟩

/-! ## Each input block is its whole array -/

theorem blk0 (c : Dev nD) (t : Fin cfg0.N) : (iblk m c 0 t : FVec Ideal S16x8192 .f32) = belA m c := by
  have hz' : (fun a => win0_0.index t a * main_arg0.ty.shape.size a) = fun _ => 0 := funext fun a => by
    have h0 : win0_0.index t a = 0 := by fin_cases a <;> rfl
    rw [h0, Nat.zero_mul]
  exact (Memref.read_access_unit_zero (Elt Ideal) main_arg0 hz' (fun a => by rw [congrFun hz' a]; simp) (V m c main_arg0)).trans (V_main_arg0 m c)

theorem blk1 (c : Dev nD) (t : Fin cfg0.N) : (iblk m c 1 t : FVec Ideal S8192x128 .f32) = embA m c := by
  have hz' : (fun a => win0_1.index t a * main_arg1.ty.shape.size a) = fun _ => 0 := funext fun a => by
    have h0 : win0_1.index t a = 0 := by fin_cases a <;> rfl
    rw [h0, Nat.zero_mul]
  exact (Memref.read_access_unit_zero (Elt Ideal) main_arg1 hz' (fun a => by rw [congrFun hz' a]; simp) (V m c main_arg1)).trans (V_main_arg1 m c)

theorem blk2 (c : Dev nD) (t : Fin cfg0.N) : (iblk m c 2 t : FVec Ideal S64x128 .f32) = wqA m c := by
  have hz' : (fun a => win0_2.index t a * main_arg4.ty.shape.size a) = fun _ => 0 := funext fun a => by
    have h0 : win0_2.index t a = 0 := by fin_cases a <;> rfl
    rw [h0, Nat.zero_mul]
  exact (Memref.read_access_unit_zero (Elt Ideal) main_arg4 hz' (fun a => by rw [congrFun hz' a]; simp) (V m c main_arg4)).trans (V_main_arg4 m c)

theorem blk3 (c : Dev nD) (t : Fin cfg0.N) : (iblk m c 3 t : FVec Ideal S1x64 .f32) = bqRow m c := by
  have hz' : (fun a => win0_3.index t a * main_v0.ty.shape.size a) = fun _ => 0 := funext fun a => by
    have h0 : win0_3.index t a = 0 := by fin_cases a <;> rfl
    rw [h0, Nat.zero_mul]
  exact Memref.read_access_unit_zero (Elt Ideal) main_v0 hz' (fun a => by rw [congrFun hz' a]; simp) (V m c main_v0)

theorem blk4 (c : Dev nD) (t : Fin cfg0.N) : (iblk m c 4 t : FVec Ideal S64x128 .f32) = wkA m c := by
  have hz' : (fun a => win0_4.index t a * main_arg2.ty.shape.size a) = fun _ => 0 := funext fun a => by
    have h0 : win0_4.index t a = 0 := by fin_cases a <;> rfl
    rw [h0, Nat.zero_mul]
  exact (Memref.read_access_unit_zero (Elt Ideal) main_arg2 hz' (fun a => by rw [congrFun hz' a]; simp) (V m c main_arg2)).trans (V_main_arg2 m c)

theorem blk5 (c : Dev nD) (t : Fin cfg0.N) : (iblk m c 5 t : FVec Ideal S64x1 .f32) = bkCol m c := by
  have hz' : (fun a => win0_5.index t a * main_v1.ty.shape.size a) = fun _ => 0 := funext fun a => by
    have h0 : win0_5.index t a = 0 := by fin_cases a <;> rfl
    rw [h0, Nat.zero_mul]
  exact Memref.read_access_unit_zero (Elt Ideal) main_v1 hz' (fun a => by rw [congrFun hz' a]; simp) (V m c main_v1)

/-! ## The recast biases read at an entry -/

theorem bqRow_apply (c : Dev nD) (h : Fin 64) : bqRow m c (ix2 (0 : Fin 1) h) = bqV m c (ix1 h) := by
  have e : (V m c main_v0 : S1x64.Idx → EReal) = shapeCast S1x64 (bqV m c) Facts₀.shapeCasts_S64_S1x64 := by
    dsimp only [V, hostOps0]; after_results; rfl
  show V m c main_v0 _ = _
  rw [e]
  exact shapeCast_a_1a_apply (bqV m c) Facts₀.shapeCasts_S64_S1x64 0 h

theorem bkCol_apply (c : Dev nD) (h : Fin 64) : bkCol m c (ix2 h (0 : Fin 1)) = bkV m c (ix1 h) := by
  have e : (V m c main_v1 : S64x1.Idx → EReal) = shapeCast S64x1 (bkV m c) Facts₀.shapeCasts_S64_S64x1 := by
    dsimp only [V, hostOps0]; after_results; rfl
  show V m c main_v1 _ = _
  rw [e]
  exact shapeCast_apply (s := S64) (t := S64x1) (bkV m c) Facts₀.shapeCasts_S64_S64x1 (ix2 h (0 : Fin 1)) (ix1 h) (by
    rw [Shape.rowMajor_val_one, Shape.rowMajor_val_two]
    show h.val = h.val * 1 + 0
    omega)

/-! ## The slab a point reads -/

/-- Point t's embedding rows start at row 512 t. -/
theorem off1_fact : ∀ t : Fin cfg0.N, k0_off1 (grid0.coords t) 0 = 512 * t.val ∧ k0_off1 (grid0.coords t) 1 = 0 :=
  (by decide +kernel : ∀ t : Fin grid0.N, k0_off1 (grid0.coords t) 0 = 512 * t.val ∧ k0_off1 (grid0.coords t) 1 = 0)

/-- Point t's belief columns start at column 512 t. -/
theorem off2_fact : ∀ t : Fin cfg0.N, k0_off2 (grid0.coords t) 0 = 0 ∧ k0_off2 (grid0.coords t) 1 = 512 * t.val :=
  (by decide +kernel : ∀ t : Fin grid0.N, k0_off2 (grid0.coords t) 0 = 0 ∧ k0_off2 (grid0.coords t) 1 = 512 * t.val)

theorem embSlab_apply (x1 : FVec Ideal S8192x128 .f32) (t : Fin cfg0.N) (r : Fin 512) (d : Fin 128) :
    embSlab (F := Ideal) (grid0.coords t) x1 (ix2 r d) = x1 (ix2 (stateOf (pt t) r) d) := by
  refine congrArg x1 (funext fun a => Fin.ext ?_)
  match a with
  | ⟨0, _⟩ =>
    show k0_off1 (grid0.coords t) 0 + 1 * r.val = 512 * t.val + r.val
    rw [(off1_fact t).1]; omega
  | ⟨1, _⟩ =>
    show k0_off1 (grid0.coords t) 1 + 1 * d.val = d.val
    rw [(off1_fact t).2]; omega

theorem beliefSlab_apply (x0 : FVec Ideal S16x8192 .f32) (t : Fin cfg0.N) (b : Fin 16) (r : Fin 512) :
    beliefSlab (F := Ideal) (grid0.coords t) x0 (ix2 b r) = x0 (ix2 b (stateOf (pt t) r)) := by
  refine congrArg x0 (funext fun a => Fin.ext ?_)
  match a with
  | ⟨0, _⟩ =>
    show k0_off2 (grid0.coords t) 0 + 1 * b.val = b.val
    rw [(off2_fact t).1]; omega
  | ⟨1, _⟩ =>
    show k0_off2 (grid0.coords t) 1 + 1 * r.val = 512 * t.val + r.val
    rw [(off2_fact t).2]; omega

/-! ## What the scratch and the output block hold after each point -/

/-- The transposed key features of the whole embedding, as point 0 stores them. -/
def keyArr (c : Dev nD) : FVec Ideal S64x8192 .bf16 := k0_pay1 (F := Ideal) (wkA m c) (embA m c) (bkCol m c)

/-- The output block after point n: the zero block at the start, then one slab's contribution added per point. -/
def accArr (c : Dev nD) : (n : ℕ) → n < cfg0.N → FVec Ideal S16x8192 .f32
  | 0, h => k0_pay3 (F := Ideal) (embSlab (F := Ideal) (grid0.coords ⟨0, h⟩) (embA m c)) (wqA m c) (bqRow m c) (keyArr m c)
      (beliefSlab (F := Ideal) (grid0.coords ⟨0, h⟩) (belA m c)) (k0_pay2 (F := Ideal))
  | n + 1, h => k0_pay3 (F := Ideal) (embSlab (F := Ideal) (grid0.coords ⟨n + 1, h⟩) (embA m c)) (wqA m c) (bqRow m c) (keyArr m c)
      (beliefSlab (F := Ideal) (grid0.coords ⟨n + 1, h⟩) (belA m c)) (accArr c n (Nat.lt_of_succ_lt h))

/-- The invariant: after point n the generated running contents are the accumulated block and the key features. -/
theorem outsAt_eq (c : Dev nD) : ∀ (n : ℕ) (h : n < cfg0.N), outsAt0 m c n h = (accArr m c n h, keyArr m c)
  | 0, h => by
    have t : Fin cfg0.N := ⟨0, h⟩
    rw [outsAt0_A m c ⟨0, h⟩ rfl]
    refine Prod.ext ?_ ?_
    · dsimp only
      rw [out_A, blk0, blk1, blk2, blk3, blk4, blk5]
      rfl
    · dsimp only
      rw [sout_A, blk1, blk4, blk5]
      rfl
  | n + 1, h => by
    have hN : cfg0.N = 16 := N_0
    have hB : ¬(⟨n + 1, h⟩ : Fin cfg0.N).val % 16 = 0 := by dsimp only; omega
    rw [outsAt0_B m c ⟨n + 1, h⟩ hB]
    refine Prod.ext ?_ ?_
    · dsimp only
      rw [out_B, blk0, blk1, blk2, blk3]
      show k0_pay3 _ _ _ (outsAt0 m c n _).2 _ (outsAt0 m c n _).1 = _
      rw [outsAt_eq c n]
      rfl
    · dsimp only [sout0_B_0]
      show (outsAt0 m c n _).2 = _
      rw [outsAt_eq c n]

/-! ## The accumulated block, entry by entry -/

theorem keyArr_apply (c : Dev nD) (h : Fin 64) (s : Fin 8192) :
    keyArr m c (ix2 h s) = keyT (embA m c) (wkA m c) (bkV m c) h s := by
  unfold keyArr keyT
  rw [keyPayload_apply, bkCol_apply]

/-- The slab's logit at row r is the logit of source state 512 t + r. -/
theorem slabLogit_eq (c : Dev nD) (t : Fin cfg0.N) (r : Fin 512) (j : Fin 8192) :
    slabLogit (embSlab (F := Ideal) (grid0.coords t) (embA m c)) (wqA m c) (bqRow m c) (keyArr m c) r j
      = logit (embA m c) (wkA m c) (bkV m c) (wqA m c) (bqV m c) (stateOf (pt t) r) j := by
  unfold slabLogit logit
  refine Finset.sum_congr rfl fun h _ => ?_
  rw [keyArr_apply]
  refine congrArg (· * keyT (embA m c) (wkA m c) (bkV m c) h j) ?_
  unfold slabQuery query
  rw [bqRow_apply]
  refine congrArg (· + bqV m c (ix1 h)) (Finset.sum_congr rfl fun d _ => ?_)
  rw [embSlab_apply]

/-- What point t adds at (b, j) is slab t's term of the slab-by-slab form. -/
theorem slab_contrib (c : Dev nD) (t : Fin cfg0.N) (b : Fin 16) (j : Fin 8192) :
    (∑ r : Fin 512, Ideal.div (beliefSlab (F := Ideal) (grid0.coords t) (belA m c) (ix2 b r))
        (∑ j' : Fin 8192, Ideal.exp (slabLogit (embSlab (F := Ideal) (grid0.coords t) (embA m c)) (wqA m c) (bqRow m c) (keyArr m c) r j'))
        * Ideal.exp (slabLogit (embSlab (F := Ideal) (grid0.coords t) (embA m c)) (wqA m c) (bqRow m c) (keyArr m c) r j))
      = slabTerm (belA m c) (embA m c) (wkA m c) (bkV m c) (wqA m c) (bqV m c) b j (pt t) := by
  unfold slabTerm rowSum expo
  refine Finset.sum_congr rfl fun r _ => ?_
  have e1 : ∀ j' : Fin 8192,
      slabLogit (embSlab (F := Ideal) (grid0.coords t) (embA m c)) (wqA m c) (bqRow m c) (keyArr m c) r j'
        = logit (embA m c) (wkA m c) (bkV m c) (wqA m c) (bqV m c) (stateOf (pt t) r) j' := fun j' => slabLogit_eq m c t r j'
  rw [beliefSlab_apply, e1 j, Finset.sum_congr rfl (fun j' _ => congrArg Ideal.exp (e1 j'))]

/-- Slab t's term at (b, j), and zero past the last slab. -/
def slabT (c : Dev nD) (b : Fin 16) (j : Fin 8192) (t : ℕ) : EReal :=
  if h : t < 16 then slabTerm (belA m c) (embA m c) (wkA m c) (bkV m c) (wqA m c) (bqV m c) b j ⟨t, h⟩ else 0

/-- After point n the block holds, at (b, j), the sum of the terms of slabs 0 .. n. -/
theorem accArr_apply (c : Dev nD) (b : Fin 16) (j : Fin 8192) :
    ∀ (n : ℕ) (h : n < cfg0.N), accArr m c n h (ix2 b j) = ∑ t ∈ Finset.range (n + 1), slabT m c b j t
  | 0, h => by
    rw [accArr, accPayload_apply, zeroPayload_apply, zero_add, slab_contrib, Finset.sum_range_one]
    unfold slabT
    rw [dif_pos (by decide)]
  | n + 1, h => by
    have hN : cfg0.N = 16 := N_0
    rw [accArr, accPayload_apply, accArr_apply c b j n, slab_contrib, Finset.sum_range_succ _ (n + 1)]
    refine congrArg (_ + ·) ?_
    unfold slabT
    rw [dif_pos (by omega)]

/-! ## The result array -/

/-- The slab-by-slab form of the six arguments, as contents of the result array. -/
def result (c : Dev nD) : Buf (Elt Ideal) ((c : Thread nD τ).loc main_v2) :=
  fusedArr (belA m c) (embA m c) (wkA m c) (bkV m c) (wqA m c) (bqV m c)

theorem last_lt : 15 < cfg0.N := by rw [show cfg0.N = 16 from N_0]; decide

/-- After the last point the block is the slab-by-slab form. -/
theorem acc_last (c : Dev nD) : accArr m c 15 last_lt = result m c := by
  funext i
  obtain ⟨b, j, rfl⟩ : ∃ (b : Fin 16) (j : Fin 8192), i = ix2 b j := ⟨i 0, i 1, eq_ix2 i⟩
  rw [accArr_apply]
  show _ = fused (belA m c) (embA m c) (wkA m c) (bkV m c) (wqA m c) (bqV m c) b j
  unfold fused
  rw [← Fin.sum_univ_eq_sum_range (fun t => slabT m c b j t) 16]
  refine Finset.sum_congr rfl fun t _ => ?_
  unfold slabT
  rw [dif_pos t.isLt]

/-- The one write-back, after point 15, writes the block, which is the whole array read through zero offsets. -/
theorem flushed_eq (c : Dev nD) (t : Fin cfg0.N) (hf : (cfg0.win 6).flush t = true) :
    (dats m 0 c).flushed 6 t = ((cfg0.win 6).blk t).view.read (Elt Ideal) (result m c) := by
  have hN : cfg0.N = 16 := N_0
  have h15 : t.val = 15 := by have := (flush0_6 t).mp hf; have := t.isLt; omega
  obtain rfl : t = ⟨15, last_lt⟩ := Fin.ext h15
  rw [flushed6, outsAt_eq]
  dsimp only
  rw [acc_last]
  have hz' : (fun a => win0_6.index ⟨15, last_lt⟩ a * main_v2.ty.shape.size a) = fun _ => 0 := funext fun a => by
    have h0 : win0_6.index ⟨15, last_lt⟩ a = 0 := by fin_cases a <;> rfl
    rw [h0, Nat.zero_mul]
  exact (Memref.read_access_unit_zero (Elt Ideal) main_v2 hz' (fun a => by rw [congrFun hz' a]; simp) (result m c)).symm

/-- Every entry of the result array lies in the block written back after point 15. -/
theorem covered (i : S16x8192.Idx) :
    ∃ t : Fin cfg0.N, (cfg0.win 6).flush t = true ∧ i ∈ ((cfg0.win 6).blk t).view.set := by
  refine ⟨⟨15, last_lt⟩, (flush0_6 _).mpr rfl, ?_⟩
  show i ∈ ((View.whole main_v2).slice (win0_6.rect ⟨15, last_lt⟩)).set
  rw [View.set_slice_whole, Rect.mem_set_unit]
  intro a
  have hi : win0_6.index ⟨15, last_lt⟩ a = 0 := by fin_cases a <;> rfl
  show win0_6.index ⟨15, last_lt⟩ a * win0_6.size a ≤ (i a : Nat)
    ∧ (i a : Nat) < win0_6.index ⟨15, last_lt⟩ a * win0_6.size a + win0_6.xsize (grid0.coords ⟨15, last_lt⟩) a
  rw [hi, Nat.zero_mul, Nat.zero_add]
  refine ⟨Nat.zero_le _, ?_⟩
  match a with
  | ⟨0, _⟩ => exact lt_of_lt_of_eq (i 0).isLt (by decide +kernel : S16x8192.size 0 = win0_6.xsize (grid0.coords ⟨15, last_lt⟩) 0)
  | ⟨1, _⟩ => exact lt_of_lt_of_eq (i 1).isLt (by decide +kernel : S16x8192.size 1 = win0_6.xsize (grid0.coords ⟨15, last_lt⟩) 1)

/-- So the result array ends holding the slab-by-slab form. -/
theorem final (c : Dev nD) : (dats m 0 c).arrAt 6 cfg0.N = result m c :=
  (dats m 0 c).arrAt_eq_of_cover 6 (result m c) (flushed_eq m c) covered

/-- The run, read: the result array at the slab-by-slab form of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Hand

end
-- ==== Proof.RefValue.lean ====
/-
  The reference program's result, read entry by entry on the extended reals, is the dense form of the factorized
  transition (Spec): each host operation is read at an index, the two feature products and the logit product as sums
  over the contracted axis, the row maximum as a fold of max from minus infinity, the normaliser as zero plus a sum.
-/
import proofs.«173221_g5935644803188_cont_9to1c4b_610_6_alg».proof.Proof.Gen.ReferenceIdeal.Read
import proofs.«173221_g5935644803188_cont_9to1c4b_610_6_alg».proof.Proof.Spec
import Idealize.ShloMosaic.PureOps.Reduce
import Idealize.ShloMosaic.PureOps.Ideal.Laws

noncomputable section

namespace Cert.Transition.Ref

open Idealize.ShloMosaic Idealize.ShloMosaic.ValueIdx Cert.ReferenceIdeal Cert.ReferenceIdeal.Gen Cert.ReferenceIdeal.Read

/-! ## Where each stage reads its operands: the composed index maps at literal coordinates -/

/-- The query product at (i, h) reads the embedding at (i, d). -/
theorem queryLeft_idx (i : Fin 8192) (h : Fin 64) (d : Fin 128) : lidx_main_v1 (ix2 i h) d = ix2 i d :=
  funext fun a => Fin.ext (by match a with | ⟨0, _⟩ => rfl | ⟨1, _⟩ => rfl)

/-- The query product at (i, h) reads the transposed query weights at (d, h), that is the weights at (h, d). -/
theorem queryRight_idx (i : Fin 8192) (h : Fin 64) (d : Fin 128) : idx_main_v0 (ridx_main_v1 (ix2 i h) d) = ix2 h d :=
  funext fun a => Fin.ext (by match a with | ⟨0, _⟩ => rfl | ⟨1, _⟩ => rfl)

/-- The broadcast query bias at (i, h) is the bias at h. -/
theorem queryBias_idx (i : Fin 8192) (h : Fin 64) : idx_main_v2 (idx_main_v3 (ix2 i h)) = ix1 h :=
  funext fun a => Fin.ext (by match a with | ⟨0, _⟩ => rfl)

/-- The key product at (s, h) reads the embedding at (s, d). -/
theorem keyLeft_idx (s : Fin 8192) (h : Fin 64) (d : Fin 128) : lidx_main_v6 (ix2 s h) d = ix2 s d :=
  funext fun a => Fin.ext (by match a with | ⟨0, _⟩ => rfl | ⟨1, _⟩ => rfl)

/-- The key product at (s, h) reads the transposed key weights at (d, h), that is the weights at (h, d). -/
theorem keyRight_idx (s : Fin 8192) (h : Fin 64) (d : Fin 128) : idx_main_v5 (ridx_main_v6 (ix2 s h) d) = ix2 h d :=
  funext fun a => Fin.ext (by match a with | ⟨0, _⟩ => rfl | ⟨1, _⟩ => rfl)

/-- The broadcast key bias at (s, h) is the bias at h. -/
theorem keyBias_idx (s : Fin 8192) (h : Fin 64) : idx_main_v7 (idx_main_v8 (ix2 s h)) = ix1 h :=
  funext fun a => Fin.ext (by match a with | ⟨0, _⟩ => rfl)

/-- The transposed key features at (h, s) are the key features at (s, h). -/
theorem keyTranspose_idx (h : Fin 64) (s : Fin 8192) : idx_main_v10 (ix2 h s) = ix2 s h :=
  funext fun a => Fin.ext (by match a with | ⟨0, _⟩ => rfl | ⟨1, _⟩ => rfl)

/-- The logit product at (i, j) reads the query features at (i, h). -/
theorem logitLeft_idx (i j : Fin 8192) (h : Fin 64) : lidx_main_v11 (ix2 i j) h = ix2 i h :=
  funext fun a => Fin.ext (by match a with | ⟨0, _⟩ => rfl | ⟨1, _⟩ => rfl)

/-- The logit product at (i, j) reads the transposed key features at (h, j). -/
theorem logitRight_idx (i j : Fin 8192) (h : Fin 64) : ridx_main_v11 (ix2 i j) h = ix2 h j :=
  funext fun a => Fin.ext (by match a with | ⟨0, _⟩ => rfl | ⟨1, _⟩ => rfl)

/-- The row maximum broadcast along the row: at (k, j) it is the maximum of row k. -/
theorem maxBroadcast_idx (k j : Fin 8192) : idx_main_v15 (idx_main_v16 (ix2 k j)) = ix1 k :=
  funext fun a => Fin.ext (by match a with | ⟨0, _⟩ => rfl)

/-- The normaliser broadcast along the row: at (k, j) it is the normaliser of row k. -/
theorem sumBroadcast_idx (k j : Fin 8192) : idx_main_v20 (idx_main_v21 (ix2 k j)) = ix1 k :=
  funext fun a => Fin.ext (by match a with | ⟨0, _⟩ => rfl)

/-- The row sum at k runs over the entries (k, j'). -/
theorem rowSum_idx (k j' : Fin 8192) : idx_main_v19 (ix1 k) j' = ix2 k j' :=
  funext fun a => Fin.ext (by match a with | ⟨0, _⟩ => rfl | ⟨1, _⟩ => rfl)

/-- The last product at (b, j) reads the beliefs at (b, k). -/
theorem denseLeft_idx (b : Fin 16) (j k : Fin 8192) : lidx_main_v23 (ix2 b j) k = ix2 b k :=
  funext fun a => Fin.ext (by match a with | ⟨0, _⟩ => rfl | ⟨1, _⟩ => rfl)

/-- The last product at (b, j) reads the transition probabilities at (k, j). -/
theorem denseRight_idx (b : Fin 16) (j k : Fin 8192) : ridx_main_v23 (ix2 b j) k = ix2 k j :=
  funext fun a => Fin.ext (by match a with | ⟨0, _⟩ => rfl | ⟨1, _⟩ => rfl)

/-! ## The stages, bottom up -/

section Stages

variable (x0 : FVec Ideal S16x8192 .f32) (x1 : FVec Ideal S8192x128 .f32) (x2 : FVec Ideal S64x128 .f32)
  (x3 : FVec Ideal S64 .f32) (x4 : FVec Ideal S64x128 .f32) (x5 : FVec Ideal S64 .f32)

/-- The query features: embedding times transposed query weights, summed over the 128 embedding coordinates, plus the bias. -/
theorem query_eq (i : Fin 8192) (h : Fin 64) :
    val_main_v4 (F := Ideal) x1 x4 x5 (ix2 i h) = Cert.Transition.query x1 x4 x5 i h := by
  rw [val_main_v4_apply, val_main_v1_apply, val_main_v3_apply, val_main_v2_apply, queryBias_idx, Ideal.addf_def]
  unfold Cert.Transition.query
  refine congrArg (· + x5 (ix1 h)) (Finset.sum_congr rfl fun d _ => ?_)
  rw [val_main_v0_apply, queryLeft_idx, queryRight_idx]

/-- The transposed key features: the reference multiplies embedding by weight, the closed form weight by embedding;
    the product commutes term by term. -/
theorem keyT_eq (h : Fin 64) (s : Fin 8192) :
    val_main_v10 (F := Ideal) x1 x2 x3 (ix2 h s) = Cert.Transition.keyT x1 x2 x3 h s := by
  rw [val_main_v10_apply, keyTranspose_idx, val_main_v9_apply, val_main_v6_apply, val_main_v8_apply, val_main_v7_apply,
    keyBias_idx, Ideal.addf_def]
  unfold Cert.Transition.keyT
  refine congrArg (· + x3 (ix1 h)) (Finset.sum_congr rfl fun d _ => ?_)
  rw [val_main_v5_apply, keyLeft_idx, keyRight_idx]
  exact mul_comm _ _

/-- The logit: query features times transposed key features, summed over the 64 features. -/
theorem logit_eq (i j : Fin 8192) :
    val_main_v11 (F := Ideal) x1 x2 x3 x4 x5 (ix2 i j) = Cert.Transition.logit x1 x2 x3 x4 x5 i j := by
  rw [val_main_v11_apply]
  unfold Cert.Transition.logit
  refine Finset.sum_congr rfl fun h _ => ?_
  rw [logitLeft_idx, logitRight_idx, query_eq, keyT_eq]

end Stages

section Normalised

variable (x0 : FVec Ideal S16x8192 .f32) (x1 : FVec Ideal S8192x128 .f32) (x2 : FVec Ideal S64x128 .f32)
  (x3 : FVec Ideal S64 .f32) (x4 : FVec Ideal S64x128 .f32) (x5 : FVec Ideal S64 .f32)

/-- Row i with column coordinate k put back on the reduced axis is the entry (i, k). -/
theorem lift_row (hr : S8192x8192.Reduces [1] S8192) (i : Fin 8192) (k : Fin (S8192x8192.size 1)) :
    hr.lift (ix1 i) k = ix2 i (⟨k.val, k.isLt⟩ : Fin 8192) := by
  funext c; apply Fin.ext
  match c with
  | ⟨0, _⟩ => rfl
  | ⟨1, _⟩ => rfl

/-- The row maximum: the reduce over the column axis is the fold of max from minus infinity over the 8192 logits of
    the row, and the reference takes the maximum of that with minus infinity once more. -/
theorem rowMax_eq (i : Fin 8192) :
    val_main_v14 (F := Ideal) x1 x2 x3 x4 x5 (ix1 i) = Cert.Transition.rowMax x1 x2 x3 x4 x5 i := by
  have hr : S8192x8192.Reduces [1] S8192 :=
    ⟨reducesTo_S8192x8192_S8192_d1.1, Nat.one_pos, reducesTo_S8192x8192_S8192_d1.2⟩
  rw [val_main_v14_apply, val_main_v13_apply, val_main_cst_0_apply, Ideal.maximumf_def, Ideal.ofBits_def]
  unfold Cert.Transition.rowMax val_main_v12
  rw [Host.reduce_eq_fold_single FloatOps.maximumf _ _ _ hr _]
  have hf : (val_main_v11 (F := Ideal) x1 x2 x3 x4 x5 ∘ hr.lift (ix1 i))
      = fun k : Fin 8192 => Cert.Transition.logit x1 x2 x3 x4 x5 i k :=
    funext fun k => (congrArg (val_main_v11 (F := Ideal) x1 x2 x3 x4 x5) (lift_row hr i k)).trans
      (logit_eq x1 x2 x3 x4 x5 i ⟨k.val, k.isLt⟩)
  exact congrArg (fun f => max (Ideal.ofBits .f32 0xFF800000#32)
    (Finset.fold max (Ideal.ofBits .f32 0xFF800000#32) f (Finset.univ : Finset (Fin 8192)))) hf

/-- The shifted exponential: exp of the logit minus the row maximum, the maximum broadcast along the row. -/
theorem shiftedExp_eq (k j : Fin 8192) :
    val_main_v18 (F := Ideal) x1 x2 x3 x4 x5 (ix2 k j)
      = Ideal.exp (Cert.Transition.logit x1 x2 x3 x4 x5 k j - Cert.Transition.rowMax x1 x2 x3 x4 x5 k) := by
  rw [val_main_v18_apply, val_main_v17_apply, val_main_v16_apply, val_main_v15_apply, maxBroadcast_idx,
    Ideal.hostUnary_exp_def, Ideal.subf_def, logit_eq, rowMax_eq]

/-- The transition probability: the shifted exponential over zero plus the row's sum of shifted exponentials,
    the sum broadcast along the row. -/
theorem prob_eq (k j : Fin 8192) :
    val_main_v22 (F := Ideal) x1 x2 x3 x4 x5 (ix2 k j) = Cert.Transition.prob x1 x2 x3 x4 x5 k j := by
  rw [val_main_v22_apply, val_main_v21_apply, val_main_v20_apply, sumBroadcast_idx, val_main_v19_apply,
    val_main_cst_1_apply, Ideal.hostDivf_def, Ideal.ofBits_def, shiftedExp_eq]
  unfold Cert.Transition.prob
  refine congrArg (fun t => Ideal.div _ (Ideal.ofBits .f32 0x00000000#32 + t)) (Finset.sum_congr rfl fun j' _ => ?_)
  rw [rowSum_idx, shiftedExp_eq]

/-- The result at (b, j): beliefs times transition probabilities, summed over the 8192 source states. -/
theorem dense_eq (b : Fin 16) (j : Fin 8192) :
    val_main_v23 (F := Ideal) x0 x1 x2 x3 x4 x5 (ix2 b j) = Cert.Transition.dense x0 x1 x2 x3 x4 x5 b j := by
  rw [val_main_v23_apply]
  unfold Cert.Transition.dense
  refine Finset.sum_congr rfl fun k _ => ?_
  rw [denseLeft_idx, denseRight_idx, prob_eq]

end Normalised

/-- The reference's last stage is the dense form of its six arguments. -/
theorem value (x0 : FVec Ideal S16x8192 .f32) (x1 : FVec Ideal S8192x128 .f32) (x2 : FVec Ideal S64x128 .f32)
    (x3 : FVec Ideal S64 .f32) (x4 : FVec Ideal S64x128 .f32) (x5 : FVec Ideal S64 .f32) :
    val_main_v23 (F := Ideal) x0 x1 x2 x3 x4 x5 = Cert.Transition.denseArr x0 x1 x2 x3 x4 x5 := by
  funext i
  obtain ⟨b, j, rfl⟩ : ∃ (b : Fin 16) (j : Fin 8192), i = ix2 b j := ⟨i 0, i 1, eq_ix2 i⟩
  exact dense_eq x0 x1 x2 x3 x4 x5 b j

end Cert.Transition.Ref

end
-- ==== Proof.Algebra.lean ====
/-
  The dense form and the slab-by-slab form of the factorized transition agree when the embedding, the weights and the
  biases are real-valued (the beliefs may be any extended reals).
-/
import proofs.«173221_g5935644803188_cont_9to1c4b_610_6_alg».proof.Proof.Spec
import Mathlib.Data.EReal.Operations
import Mathlib.Data.Finset.Fold
import Mathlib.Data.Fintype.BigOperators
import Mathlib.Algebra.BigOperators.Fin
import Mathlib.Algebra.Order.BigOperators.Group.Finset
import Mathlib.Analysis.Complex.Exponential
import Mathlib.Logic.Equiv.Fin.Basic
import Mathlib.Tactic.FieldSimp

noncomputable section

namespace Cert.Transition

open Idealize.ShloMosaic Idealize.ShloMosaic.ValueIdx

/-! ### Small laws on the extended reals -/

/-- The coercion of the reals into the extended reals commutes with finite sums (by induction on the index set, with
    additivity of the coercion at each step). -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of minus infinity denotes the bottom element. -/
theorem negInf_eq : negInf = ⊥ := by simp [Ideal.ofBits, Ideal.ieee]

/-- The word of zero denotes zero. -/
theorem zeroW_eq : zeroW = 0 := by simp [Ideal.ofBits, Ideal.ieee]

/-- Folding the maximum from the bottom element over real entries gives either the bottom element (nothing folded yet)
    or a real: each step takes the larger of a real and the value so far. -/
theorem fold_max_bot_or_real {ι : Type*} (s : Finset ι) (a : ι → ℝ) :
    s.fold max (⊥ : EReal) (fun j => (a j : EReal)) = ⊥ ∨
      ∃ M : ℝ, s.fold max (⊥ : EReal) (fun j => (a j : EReal)) = (M : EReal) := by
  classical
  induction s using Finset.induction_on with
  | empty => exact Or.inl Finset.fold_empty
  | insert x s hx ih =>
    right
    rw [Finset.fold_insert hx]
    rcases ih with h | ⟨M, h⟩
    · exact ⟨a x, by rw [h, max_bot_right]⟩
    · rw [h]
      rcases le_total ((a x : ℝ) : EReal) (M : EReal) with hle | hle
      · exact ⟨M, max_eq_right hle⟩
      · exact ⟨a x, max_eq_left hle⟩

/-- Over a nonempty index set the fold is a real: it is at least one of the entries, so it is not the bottom element. -/
theorem fold_max_real {ι : Type*} (s : Finset ι) (hs : s.Nonempty) (a : ι → ℝ) :
    ∃ M : ℝ, s.fold max (⊥ : EReal) (fun j => (a j : EReal)) = (M : EReal) := by
  rcases fold_max_bot_or_real s a with h | h
  · exfalso
    obtain ⟨x, hx⟩ := hs
    have hle : ((a x : ℝ) : EReal) ≤ s.fold max (⊥ : EReal) (fun j => (a j : EReal)) :=
      (Finset.le_fold_max _).2 (Or.inr ⟨x, hx, le_refl _⟩)
    rw [h] at hle
    exact EReal.coe_ne_bot (a x) (le_bot_iff.1 hle)
  · exact h

/-! ### The softmax quotient with a shift -/

/-- With real logits `a` and any real shift `M`, the quotient of the shifted exponential by the shifted normaliser is the
    unshifted one: `exp (a j - M) = exp (a j) / exp M`, the common factor `1 / exp M` comes out of the sum and cancels. -/
theorem shifted_quot {ι : Type*} [Fintype ι] [Nonempty ι] (a : ι → ℝ) (M : ℝ) (j : ι) :
    Ideal.div (Ideal.exp ((a j : EReal) - (M : EReal)))
        ((0 : EReal) + ∑ j' : ι, Ideal.exp ((a j' : EReal) - (M : EReal)))
      = ((Real.exp (a j) / ∑ j' : ι, Real.exp (a j') : ℝ) : EReal) := by
  have hpos : 0 < ∑ j' : ι, Real.exp (a j' - M) :=
    Finset.sum_pos (fun i _ => Real.exp_pos _) Finset.univ_nonempty
  have hsum : (0 : EReal) + ∑ j' : ι, Ideal.exp ((a j' : EReal) - (M : EReal))
      = ((∑ j' : ι, Real.exp (a j' - M) : ℝ) : EReal) := by
    rw [zero_add, coe_sum]
    refine Finset.sum_congr rfl fun j' _ => ?_
    rw [← EReal.coe_sub, Ideal.exp_coe]
  rw [hsum, Ideal.div_coe hpos.ne', ← EReal.coe_sub, Ideal.exp_coe, ← EReal.coe_mul]
  congr 1
  have hM : Real.exp M ≠ 0 := (Real.exp_pos M).ne'
  have hZ : (∑ j' : ι, Real.exp (a j')) ≠ 0 :=
    (Finset.sum_pos (fun i _ => Real.exp_pos (a i)) Finset.univ_nonempty).ne'
  have h1 : ∀ x : ℝ, Real.exp (x - M) = Real.exp x / Real.exp M := fun x => Real.exp_sub x M
  simp only [h1]
  rw [← Finset.sum_div]
  field_simp

/-- Normalising an arbitrary extended real `x` by a nonzero real `Z` and then weighting by a real `e` is weighting `x` by
    the real `e / Z`: division by `Z` is the product with `1 / Z`, and the two real factors are gathered by associativity. -/
theorem div_mul_coe (x : EReal) {Z : ℝ} (hZ : Z ≠ 0) (e : ℝ) :
    Ideal.div x (Z : EReal) * (e : EReal) = x * ((e / Z : ℝ) : EReal) := by
  rw [Ideal.div_coe hZ, mul_assoc, ← EReal.coe_mul]
  congr 2
  rw [one_div, mul_comm, div_eq_mul_inv]

/-! ### The 8192 source states as 16 slabs of 512 -/

/-- A sum over the 8192 source states is the sum over the 16 slabs of the sums over each slab's 512 rows: the pair
    (slab `t`, row `r`) goes to the state `512 t + r`, and this is a bijection. -/
theorem sum_slabs (f : Fin 8192 → EReal) :
    ∑ k : Fin 8192, f k = ∑ t : Fin 16, ∑ r : Fin 512, f (stateOf t r) := by
  have h := (Equiv.sum_comp (finProdFinEquiv : Fin 16 × Fin 512 ≃ Fin (16 * 512)) f).symm
  rw [Fintype.sum_prod_type] at h
  refine h.trans ?_
  refine Finset.sum_congr rfl fun t _ => Finset.sum_congr rfl fun r _ => ?_
  congr 1
  apply Fin.ext
  simp only [finProdFinEquiv, Equiv.coe_fn_mk, stateOf]
  omega

/-! ### The logits are real when the embedding, weights and biases are -/

/-- The key feature over the reals. -/
def keyR (e : (⟨2, ![8192, 128]⟩ : Shape).Idx → ℝ) (w : (⟨2, ![64, 128]⟩ : Shape).Idx → ℝ)
    (c : (⟨1, ![64]⟩ : Shape).Idx → ℝ) (h : Fin 64) (s : Fin 8192) : ℝ :=
  (∑ d : Fin 128, w (ix2 h d) * e (ix2 s d)) + c (ix1 h)

/-- The query feature over the reals. -/
def queryR (e : (⟨2, ![8192, 128]⟩ : Shape).Idx → ℝ) (v : (⟨2, ![64, 128]⟩ : Shape).Idx → ℝ)
    (q : (⟨1, ![64]⟩ : Shape).Idx → ℝ) (i : Fin 8192) (h : Fin 64) : ℝ :=
  (∑ d : Fin 128, e (ix2 i d) * v (ix2 h d)) + q (ix1 h)

/-- The logit over the reals. -/
def logitR (e : (⟨2, ![8192, 128]⟩ : Shape).Idx → ℝ) (w : (⟨2, ![64, 128]⟩ : Shape).Idx → ℝ)
    (c : (⟨1, ![64]⟩ : Shape).Idx → ℝ) (v : (⟨2, ![64, 128]⟩ : Shape).Idx → ℝ) (q : (⟨1, ![64]⟩ : Shape).Idx → ℝ)
    (i j : Fin 8192) : ℝ :=
  ∑ h : Fin 64, queryR e v q i h * keyR e w c h j

section Real

variable {emb : Arr2 8192 128} {wk : Arr2 64 128} {bk : Arr1 64} {wq : Arr2 64 128} {bq : Arr1 64}
variable {e : (⟨2, ![8192, 128]⟩ : Shape).Idx → ℝ} {w : (⟨2, ![64, 128]⟩ : Shape).Idx → ℝ}
  {c : (⟨1, ![64]⟩ : Shape).Idx → ℝ} {v : (⟨2, ![64, 128]⟩ : Shape).Idx → ℝ} {q : (⟨1, ![64]⟩ : Shape).Idx → ℝ}

/-- The key feature of real data is the coercion of the real key feature: the coercion goes through each product, the
    sum over the 128 embedding coordinates, and the added bias. -/
theorem keyT_coe (he : ∀ i, emb i = (e i : EReal)) (hw : ∀ i, wk i = (w i : EReal)) (hc : ∀ i, bk i = (c i : EReal))
    (h : Fin 64) (s : Fin 8192) : keyT emb wk bk h s = (keyR e w c h s : EReal) := by
  unfold keyT keyR
  rw [EReal.coe_add, coe_sum, hc]
  congr 1
  refine Finset.sum_congr rfl fun d _ => ?_
  rw [hw, he, EReal.coe_mul]

/-- The query feature of real data is the coercion of the real query feature, likewise. -/
theorem query_coe (he : ∀ i, emb i = (e i : EReal)) (hv : ∀ i, wq i = (v i : EReal)) (hq : ∀ i, bq i = (q i : EReal))
    (i : Fin 8192) (h : Fin 64) : query emb wq bq i h = (queryR e v q i h : EReal) := by
  unfold query queryR
  rw [EReal.coe_add, coe_sum, hq]
  congr 1
  refine Finset.sum_congr rfl fun d _ => ?_
  rw [he, hv, EReal.coe_mul]

/-- The logit of real data is the coercion of the real logit: a sum over the 64 features of products of two reals. -/
theorem logit_coe (he : ∀ i, emb i = (e i : EReal)) (hw : ∀ i, wk i = (w i : EReal)) (hc : ∀ i, bk i = (c i : EReal))
    (hv : ∀ i, wq i = (v i : EReal)) (hq : ∀ i, bq i = (q i : EReal)) (i j : Fin 8192) :
    logit emb wk bk wq bq i j = (logitR e w c v q i j : EReal) := by
  unfold logit logitR
  rw [coe_sum]
  refine Finset.sum_congr rfl fun h _ => ?_
  rw [query_coe he hv hq, keyT_coe he hw hc, EReal.coe_mul]

variable {L : Fin 8192 → Fin 8192 → ℝ}

/-- The normaliser over the reals: a sum of exponentials, so positive. -/
theorem rowZ_pos (L : Fin 8192 → Fin 8192 → ℝ) (k : Fin 8192) : 0 < ∑ j' : Fin 8192, Real.exp (L k j') :=
  Finset.sum_pos (fun i _ => Real.exp_pos _) Finset.univ_nonempty

/-- With real logits the unnormalised weight is the real exponential. -/
theorem expo_coe (hL : ∀ i j, logit emb wk bk wq bq i j = (L i j : EReal)) (i j : Fin 8192) :
    expo emb wk bk wq bq i j = (Real.exp (L i j) : EReal) := by
  unfold expo
  rw [hL, Ideal.exp_coe]

/-- With real logits the normaliser is the real sum of exponentials. -/
theorem rowSum_coe (hL : ∀ i j, logit emb wk bk wq bq i j = (L i j : EReal)) (i : Fin 8192) :
    rowSum emb wk bk wq bq i = ((∑ j : Fin 8192, Real.exp (L i j) : ℝ) : EReal) := by
  unfold rowSum
  rw [coe_sum]
  exact Finset.sum_congr rfl fun j _ => expo_coe hL i j

/-- With real logits the row maximum is a real: the fold of the maximum from minus infinity over the 8192 real logits
    of the row is a real, and the larger of minus infinity and a real is that real. -/
theorem rowMax_coe (hL : ∀ i j, logit emb wk bk wq bq i j = (L i j : EReal)) (i : Fin 8192) :
    ∃ M : ℝ, rowMax emb wk bk wq bq i = (M : EReal) := by
  obtain ⟨M, hM⟩ := fold_max_real (Finset.univ : Finset (Fin 8192)) Finset.univ_nonempty (fun j => L i j)
  refine ⟨M, ?_⟩
  unfold rowMax
  rw [negInf_eq]
  simp only [hL]
  rw [hM, max_bot_left]

/-- With real logits the dense form's probability is the plain softmax: the row maximum is a real shift and cancels. -/
theorem prob_coe (hL : ∀ i j, logit emb wk bk wq bq i j = (L i j : EReal)) (k j : Fin 8192) :
    prob emb wk bk wq bq k j = ((Real.exp (L k j) / ∑ j' : Fin 8192, Real.exp (L k j') : ℝ) : EReal) := by
  obtain ⟨M, hM⟩ := rowMax_coe hL k
  unfold prob
  rw [hM, zeroW_eq]
  simp only [hL]
  exact shifted_quot (fun j' => L k j') M j

/-- Entry by entry: the dense form's sum over the 8192 source states is taken slab by slab, and at the state `512 t + r`
    the belief times the softmax probability is the belief normalised by the row sum times the unnormalised weight. -/
theorem dense_eq_fused_entry (hL : ∀ i j, logit emb wk bk wq bq i j = (L i j : EReal)) (belief : Arr2 16 8192)
    (b : Fin 16) (j : Fin 8192) : dense belief emb wk bk wq bq b j = fused belief emb wk bk wq bq b j := by
  unfold dense fused slabTerm
  refine (sum_slabs _).trans ?_
  refine Finset.sum_congr rfl fun t _ => Finset.sum_congr rfl fun r _ => ?_
  rw [prob_coe hL, rowSum_coe hL, expo_coe hL, div_mul_coe _ (rowZ_pos _ _).ne']

end Real

/-- With real logits, subtracting the row maximum inside the exponential cancels in the quotient, and normalising the
    belief before or after the product is the same: the two forms are one array. -/
theorem dense_eq_fused (belief : Arr2 16 8192) (emb : Arr2 8192 128) (wk : Arr2 64 128) (bk : Arr1 64) (wq : Arr2 64 128) (bq : Arr1 64)
    (hemb : ∀ i, ∃ r : ℝ, emb i = (r : EReal)) (hwk : ∀ i, ∃ r : ℝ, wk i = (r : EReal)) (hbk : ∀ i, ∃ r : ℝ, bk i = (r : EReal))
    (hwq : ∀ i, ∃ r : ℝ, wq i = (r : EReal)) (hbq : ∀ i, ∃ r : ℝ, bq i = (r : EReal)) :
    denseArr belief emb wk bk wq bq = fusedArr belief emb wk bk wq bq := by
  -- real witnesses for the embedding, the two weight matrices and the two biases
  choose e he using hemb
  choose w hw using hwk
  choose c hc using hbk
  choose v hv using hwq
  choose q hq using hbq
  have hL : ∀ i j, logit emb wk bk wq bq i j = (logitR e w c v q i j : EReal) := logit_coe he hw hc hv hq
  -- both arrays read the entrywise forms at the two coordinates of the index
  funext i
  exact dense_eq_fused_entry hL belief (i 0) (i 1)

end Cert.Transition

end
-- ==== Proof.Finite.lean ====
/-
  The precondition "every float input is finite" gives, entry by entry, that the embedding, the weights and the biases
  are real numbers: each array's conjunct says |x| < +inf at every index.
-/
import proofs.«173221_g5935644803188_cont_9to1c4b_610_6_alg».proof.Pre_finite_inputs
import Idealize.ShloMosaic.Lib.ReduceAll
import Idealize.ShloMosaic.Lib.ValueIdx

noncomputable section

namespace Cert.Transition

open Idealize.ShloMosaic Idealize.ShloMosaic.ValueIdx Cert.Pre_finite_inputs

/-- The word 0x7F800000 read on the extended reals is plus infinity. -/
theorem ofBits_posInf : Ideal.ofBits .f32 0x7F800000#32 = (⊤ : EReal) := by
  simp [Ideal.ofBits, Ideal.ieee]

/-- The element fact: an extended real whose absolute value max x (-x) is strictly below plus infinity is neither
    infinity, so it is a real number. -/
theorem real_of_abs_lt_top (x : EReal) (h : max x (-x) < ⊤) : ∃ r : ℝ, x = (r : EReal) := by
  induction x using EReal.rec with
  | bot => rw [EReal.neg_bot] at h; exact absurd h (by simp)
  | coe r => exact ⟨r, rfl⟩
  | top => exact absurd h (by simp)

/-- The element fact on the printed operations: if the ordered compare "less than" of |x| against the word of plus
    infinity answers 1, then x is a real number. -/
theorem real_of_cmp_abs (x : Ideal .f32)
    (h : FloatOps.cmpf CmpFPredicate.olt (FloatOps.hostAbsf x) (FloatOps.ofBits (F := Ideal) .f32 0x7F800000#32) = 1#1) :
    ∃ r : ℝ, x = (r : EReal) := by
  refine real_of_abs_lt_top x ?_
  -- at the ideal values the host's absolute value is max x (-x), and the compare is the order's, read as a bit
  change Ideal.cmp .olt (max x (-x)) (Ideal.ofBits .f32 0x7F800000#32) = 1#1 at h
  rw [ofBits_posInf] at h
  unfold Ideal.cmp at h
  by_contra hn
  simp [hn] at h

/-- A scalar result has one index. -/
instance subsingleton_S_Idx : Subsingleton S_.Idx := ⟨fun a b => funext fun d => d.elim0⟩

/-- The array fact: if the conjunction over all indices of the compares |x i| < +inf is 1, every entry of x is real. -/
theorem real_of_all_finite {s : Shape} {axes : List (Fin s.rank)} (x : FVec Ideal s .f32)
    (dims : Fin S_.rank → Fin s.rank) (hb : S_.BroadcastsInDim s dims) (hr : s.ReducesTo axes S_) (hu : 0 < S_.numel)
    (init : IVec S_ 1)
    (e : Host.reduce IntOp.andi
          (cmpf .olt (Host.absf x) (broadcastInDim s dims hb (constant S_ .f32 0x7F800000#32))) init hr hu ix0 = 1#1)
    (i : s.Idx) : ∃ r : ℝ, x i = (r : EReal) :=
  real_of_cmp_abs (x i) (Host.reduce_andi_all _ init hr hu ix0 e i)

/-- From the printed finiteness predicate being all ones: arguments 1 to 5 are real-valued at every index. -/
theorem real_of_finite [Cert.Pre_finite_inputs.Facts] (x0 : FVec Ideal S16x8192 .f32) (x1 : FVec Ideal S8192x128 .f32) (x2 : FVec Ideal S64x128 .f32)
    (x3 : FVec Ideal S64 .f32) (x4 : FVec Ideal S64x128 .f32) (x5 : FVec Ideal S64 .f32)
    (h : Cert.Pre_finite_inputs.fn (F := Ideal) x0 x1 x2 x3 x4 x5 = fun _ => 1#1) :
    (∀ i, ∃ r : ℝ, x1 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) := by
  have h0 := congrFun h ix0
  unfold fn fn_part1 at h0
  dsimp only [andi] at h0
  -- the six conjuncts, joined left to right: ((((a0 and a1) and a2) and a3) and a4) and a5
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨-, h1⟩ := IntOp.andi_eq_one.1 h01
  exact ⟨real_of_all_finite x1 _ _ _ _ _ h1, real_of_all_finite x2 _ _ _ _ _ h2, real_of_all_finite x3 _ _ _ _ _ h3,
    real_of_all_finite x4 _ _ _ _ _ h4, real_of_all_finite x5 _ _ _ _ _ h5⟩

end Cert.Transition

end
-- ==== Proof.lean ====
/-
  The certificate of the fused factorized-transition kernel against its dense reference.

  Both programs compute, from beliefs B, a state embedding E and two linear feature maps (keys Wk, bk and queries Wq, bq),
  the beliefs pushed through the row-stochastic matrix softmax((E Wq^T + bq)(E Wk^T + bk)^T). The reference forms the
  matrix whole, subtracting each row's maximum inside the exponential. The kernel walks the source states in 16 slabs of
  512 rows, keeps the transposed key features in a scratch from the first slab on, exponentiates the slab's logits as
  they are, divides the slab's beliefs by the row sums, and adds the slab's product into one output block that is written
  back once, after the last slab.

  On the extended reals: the kernel's result array is the slab-by-slab closed form of its arguments (the running block
  by induction over the grid points), the reference's the dense closed form (each host operation read at an entry), and
  the two closed forms agree when the embedding, weights and biases are real numbers, which the precondition that every
  input is finite provides: a real shift cancels in the softmax quotient, and dividing the belief by the row sum before
  the product or the weight by it after is the same. The beliefs need not be finite for this. Changes of float format in
  the kernel are the identity on the extended reals, so nothing was rewritten in idealizing it.

  The three programs run without fault and leave their arguments as they were: the kernel's two readings by their frame
  runs, the reference's by its run with the result dropped.
-/
import proofs.«173221_g5935644803188_cont_9to1c4b_610_6_alg».proof.Defs
import proofs.«173221_g5935644803188_cont_9to1c4b_610_6_alg».proof.Proof.Gen.Kernel
import proofs.«173221_g5935644803188_cont_9to1c4b_610_6_alg».proof.Proof.Gen.Kernel.Skeleton
import proofs.«173221_g5935644803188_cont_9to1c4b_610_6_alg».proof.Proof.Gen.Kernel.Launch
import proofs.«173221_g5935644803188_cont_9to1c4b_610_6_alg».proof.Proof.Gen.Kernel.Points
import proofs.«173221_g5935644803188_cont_9to1c4b_610_6_alg».proof.Proof.Gen.Kernel.Frame
import proofs.«173221_g5935644803188_cont_9to1c4b_610_6_alg».proof.Proof.Gen.KernelIdeal
import proofs.«173221_g5935644803188_cont_9to1c4b_610_6_alg».proof.Proof.Gen.KernelIdeal.Skeleton
import proofs.«173221_g5935644803188_cont_9to1c4b_610_6_alg».proof.Proof.Gen.KernelIdeal.Launch
import proofs.«173221_g5935644803188_cont_9to1c4b_610_6_alg».proof.Proof.Gen.KernelIdeal.Points
import proofs.«173221_g5935644803188_cont_9to1c4b_610_6_alg».proof.Proof.Gen.KernelIdeal.Frame
import proofs.«173221_g5935644803188_cont_9to1c4b_610_6_alg».proof.Proof.Gen.ReferenceIdeal
import proofs.«173221_g5935644803188_cont_9to1c4b_610_6_alg».proof.Proof.Gen.Pre_finite_inputs
import proofs.«173221_g5935644803188_cont_9to1c4b_610_6_alg».proof.Proof.Gen.KernelIdeal.Value
import proofs.«173221_g5935644803188_cont_9to1c4b_610_6_alg».proof.Proof.Gen.ReferenceIdeal.Run
import proofs.«173221_g5935644803188_cont_9to1c4b_610_6_alg».proof.Proof.Gen.ReferenceIdeal.Read
import proofs.«173221_g5935644803188_cont_9to1c4b_610_6_alg».proof.Proof.KernelValue
import proofs.«173221_g5935644803188_cont_9to1c4b_610_6_alg».proof.Proof.RefValue
import proofs.«173221_g5935644803188_cont_9to1c4b_610_6_alg».proof.Proof.Algebra
import proofs.«173221_g5935644803188_cont_9to1c4b_610_6_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- The kernel read on the extended reals runs and keeps its arguments. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote nothing. -/
theorem preserves : Cert.preserves_Kernel_KernelIdeal := trivial

/-- From memories agreeing on the six arguments, all finite, both programs end with the same result array: the kernel's
    is the slab-by-slab form, the reference's the dense form, and the two forms agree on real-valued embedding, weights
    and biases. -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.Transition.Ref.value, (hagree c).1, (hagree c).2.1, (hagree c).2.2.1,
    (hagree c).2.2.2.1, (hagree c).2.2.2.2.1, (hagree c).2.2.2.2.2]
  obtain ⟨h1, h2, h3, h4, h5⟩ := Cert.Transition.real_of_finite _ _ _ _ _ _ (hpre c)
  exact Cert.Transition.dense_eq_fused _ _ _ _ _ _ h1 h2 h3 h4 h5

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
